-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S16384x512 : Shape := ⟨2, ![16384, 512]⟩
abbrev S16384 : Shape := ⟨1, ![16384]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S1024x512 .f32) (main_arg1 : IVec S1024 32) (main_arg2 : FVec F S16384x512 .f32) (main_arg3 : FVec F S16384 .f32) (main_arg4 : FVec F S16384 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S1024x512 : Shape := ⟨2, ![1024, 512]⟩
abbrev S1024 : Shape := ⟨1, ![1024]⟩
abbrev S16384x512 : Shape := ⟨2, ![16384, 512]⟩
abbrev S16384 : Shape := ⟨1, ![16384]⟩
abbrev S1024x1 : Shape := ⟨2, ![1024, 1]⟩
abbrev S1x16384 : Shape := ⟨2, ![1, 16384]⟩
abbrev S4x16x128 : Shape := ⟨3, ![4, 16, 128]⟩
abbrev S256x512 : Shape := ⟨2, ![256, 512]⟩
abbrev S1x256 : Shape := ⟨2, ![1, 256]⟩
abbrev S4x8x128 : Shape := ⟨3, ![4, 8, 128]⟩
abbrev S256 : Shape := ⟨1, ![256]⟩
abbrev S256x1 : Shape := ⟨2, ![256, 1]⟩
abbrev S1024x256 : Shape := ⟨2, ![1024, 256]⟩
abbrev S1 : Shape := ⟨1, ![1]⟩
abbrev S1x1 : Shape := ⟨2, ![1, 1]⟩
abbrev S1x8x128 : Shape := ⟨3, ![1, 8, 128]⟩
abbrev S8x128 : Shape := ⟨2, ![8, 128]⟩
abbrev S4x2x8x128 : Shape := ⟨4, ![4, 2, 8, 128]⟩
abbrev S4x2x1x1 : Shape := ⟨4, ![4, 2, 1, 1]⟩
abbrev S4x2 : Shape := ⟨2, ![4, 2]⟩
abbrev S_ : Shape := ⟨0, ![]⟩
abbrev S4 : Shape := ⟨1, ![4]⟩

abbrev nBuf : Space → Nat
  | .hbm => 25
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S16384x512, .f32⟩
  | .hbm, ⟨3, _⟩ => ⟨S16384, .f32⟩
  | .hbm, ⟨4, _⟩ => ⟨S16384, .f32⟩
  | .hbm, ⟨5, _⟩ => ⟨S1024x1, .i32⟩
  | .hbm, ⟨6, _⟩ => ⟨S1x16384, .f32⟩
  | .hbm, ⟨7, _⟩ => ⟨S1x16384, .f32⟩
  | .hbm, ⟨8, _⟩ => ⟨S4x16x128, .f32⟩
  | .hbm, ⟨9, _⟩ => ⟨S4x2x8x128, .f32⟩
  | .hbm, ⟨10, _⟩ => ⟨S4x2x1x1, .f32⟩
  | .hbm, ⟨11, _⟩ => ⟨S4x2, .f32⟩
  | .hbm, ⟨12, _⟩ => ⟨S_, .f32⟩
  | .hbm, ⟨13, _⟩ => ⟨S4, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x512, .f32⟩
  | .local _ .vmem, ⟨1, _⟩ => ⟨S1024x1, .i32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S4x8x128, .f32⟩
  | .local _ .vmem, ⟨9, _⟩ => ⟨S4x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1024_S1024x1 : S1024.ShapeCasts S1024x1
  shapeCasts_S16384_S1x16384 : S16384.ShapeCasts S1x16384
  inb_S4x8x128_S4x8x128_0_0_0 : ∀ a, (![0, 0, 0] : Fin 3 → Nat) a + S4x8x128.size a ≤ S4x8x128.size a
  h_S4x8x128 : 0 < S4x8x128.numel
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  iota_S1x256_d1_w32 : S1x256.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  broadcasts_S1x256_S1024x256 : S1x256.Broadcasts S1024x256
  natLt_1_32 : 1 < 32
  reduces_S1024x256_S256 : S1024x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  inb_S4x8x128_S1x8x128_0_0_0 : ∀ a, (![0, 0, 0] : Fin 3 → Nat) a + S1x8x128.size a ≤ S4x8x128.size a
  h_S1x8x128 : 0 < S1x8x128.numel
  shapeCasts_S1x8x128_S8x128 : S1x8x128.ShapeCasts S8x128
  shapeCasts_S1x1_S1x1 : S1x1.ShapeCasts S1x1
  broadcasts_S1x1_S8x128 : S1x1.Broadcasts S8x128
  shapeCasts_S8x128_S1x8x128 : S8x128.ShapeCasts S1x8x128
  inb_S4x8x128_S1x8x128_1_0_0 : ∀ a, (![1, 0, 0] : Fin 3 → Nat) a + S1x8x128.size a ≤ S4x8x128.size a
  inb_S4x8x128_S1x8x128_2_0_0 : ∀ a, (![2, 0, 0] : Fin 3 → Nat) a + S1x8x128.size a ≤ S4x8x128.size a
  inb_S4x8x128_S1x8x128_3_0_0 : ∀ a, (![3, 0, 0] : Fin 3 → Nat) a + S1x8x128.size a ≤ S4x8x128.size a
  shapeCasts_S4x16x128_S4x2x8x128 : S4x16x128.ShapeCasts S4x2x8x128
  slices_S4x2x8x128_S4x2x1x1_0_0_0_0 : S4x2x8x128.Slices ![0, 0, 0, 0] S4x2x1x1
  shapeCasts_S4x2x1x1_S4x2 : S4x2x1x1.ShapeCasts S4x2
  reducesTo_S4x2_S4_d1 : S4x2.ReducesTo [1] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .i32 = 32 ∨ (Rect.block (s := S1024x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x16384.size a
  hwx0_4 : ∀ i : grid0.Coords, EltTy.bits .f32 = 32 ∨ (Rect.block (s := S1x16384) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x8x128.size a ≤ S4x16x128.size a
  hwx0_5 : ∀ i : grid0.Coords, EltTy.bits .f32 = 32 ∨ (Rect.block (s := S4x16x128) S4x8x128.size (cc0_transform_5 i) (hinb0_5 i)).WholeWords (EltTy.packing .f32)

variable [Facts₀]

def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S16384x512 : Shape := ⟨2, ![16384, 512]⟩
abbrev S16384 : Shape := ⟨1, ![16384]⟩
abbrev S1024x1 : Shape := ⟨2, ![1024, 1]⟩
abbrev S1x16384 : Shape := ⟨2, ![1, 16384]⟩
abbrev S1024x16384 : Shape := ⟨2, ![1024, 16384]⟩
abbrev S_ : Shape := ⟨0, ![]⟩
abbrev S16384x1 : Shape := ⟨2, ![16384, 1]⟩
abbrev S512x16384 : Shape := ⟨2, ![512, 16384]⟩

abbrev nBuf : Space → Nat
  | .hbm => 126
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S16384x512, .f32⟩
  | .hbm, ⟨3, _⟩ => ⟨S16384, .f32⟩
  | .hbm, ⟨4, _⟩ => ⟨S16384, .f32⟩
  | .hbm, ⟨5, _⟩ => ⟨S1024x1, .i32⟩
  | .hbm, ⟨6, _⟩ => ⟨S1x16384, .i32⟩
  | .hbm, ⟨7, _⟩ => ⟨S1024x16384, .i32⟩
  | .hbm, ⟨8, _⟩ => ⟨S1024x16384, .i32⟩
  | .hbm, ⟨9, _⟩ => ⟨S1024x16384, .i1⟩
  | .hbm, ⟨10, _⟩ => ⟨S1024x16384, .f32⟩
  | .hbm, ⟨11, _⟩ => ⟨S_, .f32⟩
  | .hbm, ⟨12, _⟩ => ⟨S1024x16384, .f32⟩
  | .hbm, ⟨13, _⟩ => ⟨S1024x16384, .f32⟩
  | .hbm, ⟨14, _⟩ => ⟨S16384x512, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S512x16384, .f32⟩
  | .hbm, ⟨25, _⟩ => ⟨S1024x16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .i1⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S_, .f32⟩
  | .hbm, ⟨55, _⟩ => ⟨S1x16384, .f32⟩
  | .hbm, ⟨56, _⟩ => ⟨S1024x16384, .f32⟩
  | .hbm, ⟨57, _⟩ => ⟨S1024x16384, .i1⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S1x16384, .f32⟩
  | .hbm, ⟨65, _⟩ => ⟨S_, .f32⟩
  | .hbm, ⟨66, _⟩ => ⟨S_, .f32⟩
  | .hbm, ⟨67, _⟩ => ⟨S1024x16384, .f32⟩
  | .hbm, ⟨68, _⟩ => ⟨S1024x16384, .f32⟩
  | .hbm, ⟨69, _⟩ => ⟨S1024x16384, .f32⟩
  | .hbm, ⟨70, _⟩ => ⟨S_, .f32⟩
  | .hbm, ⟨71, _⟩ => ⟨S16384, .f32⟩
  | .hbm, ⟨72, _⟩ => ⟨S1024x16384, .f32⟩
  | .hbm, ⟨73, _⟩ => ⟨S_, .f32⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .i1⟩
  | .hbm, ⟨82, _⟩ => ⟨S_, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1024x16384, .f32⟩
  | .hbm, ⟨90, _⟩ => ⟨S1024x16384, .i1⟩
  | .hbm, ⟨91, _⟩ => ⟨S_, .f32⟩
  | .hbm, ⟨92, _⟩ => ⟨S_, .f32⟩
  | .hbm, ⟨93, _⟩ => ⟨S1024x16384, .f32⟩
  | .hbm, ⟨94, _⟩ => ⟨S1024x16384, .f32⟩
  | .hbm, ⟨95, _⟩ => ⟨S_, .f32⟩
  | .hbm, ⟨96, _⟩ => ⟨S1024x16384, .f32⟩
  | .hbm, ⟨97, _⟩ => ⟨S1024x16384, .f32⟩
  | .hbm, ⟨98, _⟩ => ⟨S_, .f32⟩
  | .hbm, ⟨99, _⟩ => ⟨S1024x16384, .f32⟩
  | .hbm, ⟨100, _⟩ => ⟨S1024x16384, .f32⟩
  | .hbm, ⟨101, _⟩ => ⟨S1024x16384, .f32⟩
  | .hbm, ⟨102, _⟩ => ⟨S1024x16384, .f32⟩
  | .hbm, ⟨103, _⟩ => ⟨S1024x16384, .f32⟩
  | .hbm, ⟨104, _⟩ => ⟨S_, .f32⟩
  | .hbm, ⟨105, _⟩ => ⟨S16384, .f32⟩
  | .hbm, ⟨106, _⟩ => ⟨S16384, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1024x16384, .f32⟩
  | .hbm, ⟨111, _⟩ => ⟨S1024x16384, .f32⟩
  | .hbm, ⟨112, _⟩ => ⟨S_, .f32⟩
  | .hbm, ⟨113, _⟩ => ⟨S1024x16384, .f32⟩
  | .hbm, ⟨114, _⟩ => ⟨S1024x16384, .f32⟩
  | .hbm, ⟨115, _⟩ => ⟨S1024x16384, .f32⟩
  | .hbm, ⟨116, _⟩ => ⟨S1024x16384, .f32⟩
  | .hbm, ⟨117, _⟩ => ⟨S1024x16384, .f32⟩
  | .hbm, ⟨118, _⟩ => ⟨S_, .f32⟩
  | .hbm, ⟨119, _⟩ => ⟨S16384, .f32⟩
  | .hbm, ⟨120, _⟩ => ⟨S16384, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_cst_18 : Ref sig .tc := ⟨.hbm, 82, rfl⟩
abbrev main_call2_v0 : Ref sig .tc := ⟨.hbm, 83, rfl⟩
abbrev main_call2_v1 : Ref sig .tc := ⟨.hbm, 84, rfl⟩
abbrev main_v50 : Ref sig .tc := ⟨.hbm, 85, rfl⟩
abbrev main_cst_19 : Ref sig .tc := ⟨.hbm, 86, rfl⟩
abbrev main_v51 : Ref sig .tc := ⟨.hbm, 87, rfl⟩
abbrev main_cst_20 : Ref sig .tc := ⟨.hbm, 88, rfl⟩
abbrev main_v52 : Ref sig .tc := ⟨.hbm, 89, rfl⟩
abbrev main_v53 : Ref sig .tc := ⟨.hbm, 90, rfl⟩
abbrev main_cst_21 : Ref sig .tc := ⟨.hbm, 91, rfl⟩
abbrev main_call3_v0 : Ref sig .tc := ⟨.hbm, 92, rfl⟩
abbrev main_call3_v1 : Ref sig .tc := ⟨.hbm, 93, rfl⟩
abbrev main_v54 : Ref sig .tc := ⟨.hbm, 94, rfl⟩
abbrev main_cst_22 : Ref sig .tc := ⟨.hbm, 95, rfl⟩
abbrev main_v55 : Ref sig .tc := ⟨.hbm, 96, rfl⟩
abbrev main_v56 : Ref sig .tc := ⟨.hbm, 97, rfl⟩
abbrev main_cst_23 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_24 : Ref sig .tc := ⟨.hbm, 104, rfl⟩
abbrev main_v62 : Ref sig .tc := ⟨.hbm, 105, rfl⟩
abbrev main_v63 : Ref sig .tc := ⟨.hbm, 106, rfl⟩
abbrev main_cst_25 : Ref sig .tc := ⟨.hbm, 107, rfl⟩
abbrev main_v64 : Ref sig .tc := ⟨.hbm, 108, rfl⟩
abbrev main_cst_26 : Ref sig .tc := ⟨.hbm, 109, rfl⟩
abbrev main_v65 : Ref sig .tc := ⟨.hbm, 110, rfl⟩
abbrev main_v66 : Ref sig .tc := ⟨.hbm, 111, rfl⟩
abbrev main_cst_27 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_28 : Ref sig .tc := ⟨.hbm, 118, rfl⟩
abbrev main_v72 : Ref sig .tc := ⟨.hbm, 119, rfl⟩
abbrev main_v73 : Ref sig .tc := ⟨.hbm, 120, rfl⟩
abbrev main_cst_29 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x16384_0_1 : S1024x1.BroadcastsInDim S1024x16384 (![0, 1] : Fin 2 → Fin S1024x16384.rank)
  bcast_S1x16384_S1024x16384_0_1 : S1x16384.BroadcastsInDim S1024x16384 (![0, 1] : Fin 2 → Fin S1024x16384.rank)
  bcast_S_S1024x16384 : S_.BroadcastsInDim S1024x16384 (![] : Fin 0 → Fin S1024x16384.rank)
  reducesTo_S16384x512_S16384_d1 : S16384x512.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S16384x512_S512x16384_1_0 : S16384x512.Transposes [1, 0] S512x16384
  reducesTo_S1024x16384_S16384_d0 : S1024x16384.ReducesTo [0] S16384
  reducesTo_S16384_S_d0 : S16384.ReducesTo [0] S_
  bcast_S16384_S1x16384_1 : S16384.BroadcastsInDim S1x16384 (![1] : Fin 1 → Fin S1x16384.rank)
  dot_S1024x512_S512x16384_S1024x16384_1_0_0_1_n_n_wf : DotDims.WF S1024x512 S512x16384 S1024x16384 [1] [0] [0] [1] [] []

variable [Facts₀]

def dot_S1024x512_S512x16384_S1024x16384_1_0_0_1_n_n : DotDims S1024x512 S512x16384 S1024x16384 where
  lhsContracting := [1]
  rhsContracting := [0]
  lhsNonContracting := [0]
  rhsNonContracting := [1]
  lhsBatch := []
  rhsBatch := []
  wf := dot_S1024x512_S512x16384_S1024x16384_1_0_0_1_n_n_wf

class Facts : Prop extends Facts₀ where

variable [Facts]
-- ==== Proof.TileDefs.lean ====
/-
  What one grid point adds to each of the four running sums, as a function of the point's blocks.

  The body computes, from the embeddings x0, the targets x1, the tile of 256 proxy rows x2 and the tile's effective
  numbers x3 and learned similarities x4, four numbers: the tile's presence count, its summed mean negative weight,
  and its two summed log terms. Each is added to every entry of one [8, 128] slab of the output block.
  part k names them (k = 0 .. 3, the slab's number) over the body's own arithmetic.
-/
import proofs.«133286_j10222022165009_1_alg».proof.Proof.Gen.KernelIdeal.Skeleton
import Idealize.ShloMosaic.Lib.ValueIdx

noncomputable section

namespace Cert.KernelIdeal.Tile

open Idealize.ShloMosaic Idealize.ShloMosaic.ValueIdx Cert.KernelIdeal Cert.KernelIdeal.Gen

variable {F : FTy → Type} [FloatOps F]

/-- The cosines of the batch against the tile's normalized proxy rows. -/
abbrev cosT (x0 : Vec F S1024x512 .f32) (x2 : Vec F S256x512 .f32) : FVec F S1024x256 .f32 := k0_pay5 x2 x0

/-- The tile's negative weights. -/
abbrev negT (x0 : Vec F S1024x512 .f32) (x2 : Vec F S256x512 .f32) (x3 x4 : Vec F S1x256 .f32) : FVec F S1024x256 .f32 :=
  k0_pay10 (cosT x0 x2) (k0_pay9 x3) x4

/-- What point i adds to slab k of the output block. -/
def part (k : Fin 4) (i : grid0.Coords) (x0 : Vec F S1024x512 .f32) (x1 : Vec F S1024x1 .i32) (x2 : Vec F S256x512 .f32)
    (x3 x4 : Vec F S1x256 .f32) : F .f32 :=
  match k with
  | 0 => (multiReduction .add [1] S1 (k0_pay8 i x1) 0x00000000#32 reduces_S1x256_S1 (.inl rfl) rfl : FVec F S1 .f32) (ix1 0)
  | 1 => k0_pay11 (cosT x0 x2) (k0_pay7 i x1) (k0_pay9 x3) x4 (ix2 0 0)
  | 2 => k0_pay14 (cosT x0 x2) (k0_pay6 i x1) (k0_pay7 i x1) (negT x0 x2 x3 x4) (k0_pay12 (F := F)) (ix2 0 0)
  | 3 => k0_pay15 (cosT x0 x2) (k0_pay7 i x1) (negT x0 x2 x3 x4) (k0_pay12 (F := F)) (ix2 0 0)

/-- The index word the body gives column l of the tile at point i: ((i0 * 32 + i1) * 256) + l, on 32-bit words. -/
def tileWord (i : grid0.Coords) (l : Fin 256) : BitVec 32 :=
  IntOp.addi (Scalar.muli (Scalar.addi (Scalar.muli (BitVec.ofNat 32 (i 0).val) 32#32) (BitVec.ofNat 32 (i 1).val)) 256#32)
    (BitVec.ofNat 32 l.val)

end Cert.KernelIdeal.Tile

end
-- ==== Proof.Pieces.lean ====
/-
  What the body leaves in the output block, entry by entry, in its two control cases.

  The block is four [8, 128] slabs. At a core's first point the body stores zeros over the whole block and then adds,
  slab by slab, the point's four numbers to what it reads back: every entry of slab k ends at 0 + part k.
  At every other point it adds them to what the point before left: entry (k, r, l) ends at old (k, r, l) + part k.
-/
import proofs.«133286_j10222022165009_1_alg».proof.Proof.Gen.KernelIdeal.Frame
import proofs.«133286_j10222022165009_1_alg».proof.Proof.TileDefs
import Idealize.ShloMosaic.Lib.Pipeline.Value
import Idealize.ShloMosaic.Lib.Pipeline.FrameBody
import Idealize.ShloMosaic.Lib.ValueLayout
import Idealize.ShloMosaic.Lib.WholeRead
import Idealize.ShloMosaic.Lib.Tactic

noncomputable section

namespace Cert.KernelIdeal.Pieces

open Idealize.ShloMosaic Idealize.ShloMosaic.TcCoe Idealize.SL.Sem Idealize.ShloMosaic.ValueIdx
open Cert.KernelIdeal Cert.KernelIdeal.Gen Cert.KernelIdeal.Tile

variable {F : FTy → Type} [FloatOps F]

/-! ## The stored blocks, read at an entry -/

/-- The one index of a [1, 1] block. -/
abbrev o11 : S1x1.Idx := ix2 (0 : Fin 1) (0 : Fin 1)

/-- A [1, 1] block spread over [8, 128] reads its one entry everywhere. -/
theorem bcast11_apply (p : FVec F S1x1 .f32) (r : Fin 8) (l : Fin 128) :
    broadcastTo S8x128 p broadcasts_S1x1_S8x128 (ix2 r l) = p o11 :=
  broadcastTo_apply p broadcasts_S1x1_S8x128 (ix2 r l) o11 fun a => by
    match a with
    | ⟨0, _⟩ => rfl
    | ⟨1, _⟩ => rfl

/-- Slab 2's stored block at (0, r, l): the entry read plus the added number. -/
theorem pay2_apply (p : FVec F S1x1 .f32) (v : Vec F S1x8x128 .f32) (r : Fin 8) (l : Fin 128) :
    k0_pay2 p v (ix3 (0 : Fin 1) r l) = FloatOps.addf (v (ix3 (0 : Fin 1) r l)) (p o11) := by
  unfold k0_pay2
  rw [shapeCast_ab_1ab_apply]
  show FloatOps.addf (shapeCast S8x128 v shapeCasts_S1x8x128_S8x128 (ix2 r l))
      (broadcastTo S8x128 (shapeCast S1x1 p shapeCasts_S1x1_S1x1) broadcasts_S1x1_S8x128 (ix2 r l)) = _
  rw [shapeCast_1ab_ab_apply, bcast11_apply, shapeCast_self]

/-- Slab 3's stored block at (0, r, l). -/
theorem pay3_apply (p : FVec F S1x1 .f32) (v : Vec F S1x8x128 .f32) (r : Fin 8) (l : Fin 128) :
    k0_pay3 p v (ix3 (0 : Fin 1) r l) = FloatOps.addf (v (ix3 (0 : Fin 1) r l)) (p o11) := by
  unfold k0_pay3
  rw [shapeCast_ab_1ab_apply]
  show FloatOps.addf (shapeCast S8x128 v shapeCasts_S1x8x128_S8x128 (ix2 r l))
      (broadcastTo S8x128 (shapeCast S1x1 p shapeCasts_S1x1_S1x1) broadcasts_S1x1_S8x128 (ix2 r l)) = _
  rw [shapeCast_1ab_ab_apply, bcast11_apply, shapeCast_self]

/-- Slab 1's stored block at (0, r, l): its first argument is the read block with the unit axis already dropped. -/
theorem pay1_apply (w : FVec F S8x128 .f32) (p : FVec F S1x1 .f32) (r : Fin 8) (l : Fin 128) :
    k0_pay1 w p (ix3 (0 : Fin 1) r l) = FloatOps.addf (w (ix2 r l)) (p o11) := by
  unfold k0_pay1
  rw [shapeCast_ab_1ab_apply]
  show FloatOps.addf (w (ix2 r l)) (broadcastTo S8x128 p broadcasts_S1x1_S8x128 (ix2 r l)) = _
  rw [bcast11_apply]

/-- The read block with its unit axis dropped, at (r, l). -/
theorem pay17_apply (v : Vec F S1x8x128 .f32) (r : Fin 8) (l : Fin 128) :
    k0_pay17 v (ix2 r l) = v (ix3 (0 : Fin 1) r l) := by
  unfold k0_pay17
  rw [shapeCast_1ab_ab_apply]

/-- A [1, 1] block cast to its own shape is itself. -/
theorem pay18_eq (p : FVec F S1x1 .f32) : k0_pay18 p = p := by
  unfold k0_pay18
  rw [shapeCast_self]

/-- Slab 0's stored block at (0, r, l): the entry read plus the row sum of the presence row. -/
theorem pay16_apply (q : FVec F S1x256 .f32) (v : Vec F S1x8x128 .f32) (r : Fin 8) (l : Fin 128) :
    k0_pay16 q v (ix3 (0 : Fin 1) r l)
      = FloatOps.addf (v (ix3 (0 : Fin 1) r l))
          ((multiReduction .add [1] S1 q 0x00000000#32 reduces_S1x256_S1 (.inl rfl) rfl : FVec F S1 .f32) (ix1 (0 : Fin 1))) := by
  unfold k0_pay16
  rw [shapeCast_ab_1ab_apply]
  show FloatOps.addf (shapeCast S8x128 v shapeCasts_S1x8x128_S8x128 (ix2 r l))
      (broadcastTo S8x128 (shapeCast S1x1 (shapeCast S1x1 _ shapeCasts_S1_S1x1) shapeCasts_S1x1_S1x1) broadcasts_S1x1_S8x128 (ix2 r l)) = _
  rw [shapeCast_1ab_ab_apply, bcast11_apply, shapeCast_self]
  show FloatOps.addf _ (shapeCast S1x1 _ shapeCasts_S1_S1x1 (ix2 (0 : Fin 1) (0 : Fin 1))) = _
  rw [shapeCast_a_1a_apply]

/-- The zero block reads the zero word everywhere. -/
theorem pay4_apply (y : S4x8x128.Idx) : (k0_pay4 (F := F)) y = Scalar.ofBits (F := F) .f32 0x00000000#32 := rfl

/-! ## The four slabs of the block -/

/-- The two zero offsets, as a constant function. -/
theorem hz2 : (![0, 0] : Fin 2 → Nat) = fun _ => 0 := funext fun a => by
  match a with
  | ⟨0, _⟩ => rfl
  | ⟨1, _⟩ => rfl

/-- A load of a whole block through a memref holding contents that read X reads X. -/
theorem load_whole {S : Shape} {e : EltTy} {m : Memref sig .tc .vmem S e} (h : m.IsWhole) (X : S.Idx → Elt F e)
    {off : Fin S.rank → Nat} (hoff : off = fun _ => 0) (inb : ∀ a, off a + S.size a ≤ S.size a) :
    View.readAt (Elt F) m.view (Rect.unit off S.size inb).toLoadRect (h.unread X) = X := by
  funext x
  rw [h.readAt_unread]
  exact congrFun (View.ld_unit_zero hoff inb X) x

/-- Slab o of the block, as a rectangle: one [8, 128] sheet at height o. -/
abbrev slab (o : Nat) (inb : ∀ a, (![o, 0, 0] : Fin 3 → Nat) a + S1x8x128.size a ≤ S4x8x128.size a) : Rect S4x8x128 :=
  Rect.unit (s := S4x8x128) ![o, 0, 0] S1x8x128.size inb

/-- Slab o placed: its entry (0, r, l) is the block's entry (o, r, l). -/
theorem slab_idx {o : Nat} (inb : ∀ a, (![o, 0, 0] : Fin 3 → Nat) a + S1x8x128.size a ≤ S4x8x128.size a)
    (k : Fin 4) (hk : k.val = o) (r : Fin 8) (l : Fin 128) :
    (slab o inb).toLoadRect.idx (ix3 (0 : Fin 1) r l) = ix3 k r l := by
  funext a
  apply Fin.ext
  match a with
  | ⟨0, _⟩ => show o + 1 * 0 = k.val; omega
  | ⟨1, _⟩ => show 0 + 1 * r.val = r.val; omega
  | ⟨2, _⟩ => show 0 + 1 * l.val = l.val; omega

/-- An entry of slab k is outside every other slab. -/
theorem not_mem_slab {o : Nat} (inb : ∀ a, (![o, 0, 0] : Fin 3 → Nat) a + S1x8x128.size a ≤ S4x8x128.size a)
    (k : Fin 4) (hk : k.val ≠ o) (r : Fin 8) (l : Fin 128) :
    ix3 k r l ∉ (slab o inb).set := by
  rw [Rect.mem_set_unit]
  intro hm
  have h0 : o ≤ k.val ∧ k.val < o + 1 := hm ⟨0, Nat.succ_pos 2⟩
  omega

/-- Under a last store to slab k, the block's entry (k, r, l) is the stored block's entry (0, r, l). -/
theorem canon_slab {o : Nat} (inb : ∀ a, (![o, 0, 0] : Fin 3 → Nat) a + S1x8x128.size a ≤ S4x8x128.size a)
    (w : (slab o inb).shape.Idx → Elt F .f32) (L : List (View.Piece (Elt F) S4x8x128 .f32))
    (k : Fin 4) (hk : k.val = o) (r : Fin 8) (l : Fin 128) :
    View.canon (⟨slab o inb, w⟩ :: L) (ix3 k r l) = w (ix3 (0 : Fin 1) r l) :=
  (congrArg (View.canon (⟨slab o inb, w⟩ :: L)) (slab_idx inb k hk r l).symm).trans
    (View.canon_cons_emb (slab o inb) w L (ix3 (0 : Fin 1) r l))

/-- Under a last store to another slab, the block's entry (k, r, l) is what the earlier stores left. -/
theorem canon_skip {o : Nat} (inb : ∀ a, (![o, 0, 0] : Fin 3 → Nat) a + S1x8x128.size a ≤ S4x8x128.size a)
    (w : (slab o inb).shape.Idx → Elt F .f32) (L : List (View.Piece (Elt F) S4x8x128 .f32))
    (k : Fin 4) (hk : k.val ≠ o) (r : Fin 8) (l : Fin 128) :
    View.canon (⟨slab o inb, w⟩ :: L) (ix3 k r l) = View.canon L (ix3 k r l) :=
  View.canon_cons_of_not_mem ⟨slab o inb, w⟩ L (not_mem_slab inb k hk r l)

/-- A load of slab k from a whole block holding contents that read X, at (0, r, l): X at (k, r, l). -/
theorem load_slab {m : Memref sig .tc .vmem S4x8x128 .f32} (h : m.IsWhole) (X : S4x8x128.Idx → Elt F .f32) {o : Nat}
    (inb : ∀ a, (![o, 0, 0] : Fin 3 → Nat) a + S1x8x128.size a ≤ S4x8x128.size a)
    (k : Fin 4) (hk : k.val = o) (r : Fin 8) (l : Fin 128) :
    View.readAt (Elt F) m.view (slab o inb).toLoadRect (h.unread X) (ix3 (0 : Fin 1) r l) = X (ix3 k r l) :=
  (h.readAt_unread X (slab o inb).toLoadRect (ix3 (0 : Fin 1) r l)).trans (congrArg X (slab_idx inb k hk r l))

/-! ## Read-backs after the zero fill -/

/-- The three zero offsets, as a constant function. -/
theorem hz3 : (![0, 0, 0] : Fin 3 → Nat) = fun _ => 0 := funext fun a => by
  match a with
  | ⟨0, _⟩ => rfl
  | ⟨1, _⟩ => rfl
  | ⟨2, _⟩ => rfl

/-- A load of slab k after the stores L, at (0, r, l): what L leaves at (k, r, l). -/
theorem readCov_slab {κ : Kind} {sp : Space} (v : View sig κ sp S4x8x128 .f32) (L : List (View.Piece (Elt F) S4x8x128 .f32)) {o : Nat}
    (inb : ∀ a, (![o, 0, 0] : Fin 3 → Nat) a + S1x8x128.size a ≤ S4x8x128.size a)
    (k : Fin 4) (hk : k.val = o) (r : Fin 8) (l : Fin 128) :
    v.readCov L (slab o inb).toLoadRect (ix3 (0 : Fin 1) r l) = View.canon L (ix3 k r l) :=
  (congrFun (View.readCov_eq_canon' v L (slab o inb).toLoadRect) (ix3 (0 : Fin 1) r l)).trans
    (congrArg (View.canon L) (slab_idx inb k hk r l))

/-- The zero fill of the whole block, alone, leaves the zero word everywhere. -/
theorem canon_zero (inb : ∀ a, (![0, 0, 0] : Fin 3 → Nat) a + S4x8x128.size a ≤ S4x8x128.size a) (y : S4x8x128.Idx) :
    View.canon [(⟨Rect.unit (s := S4x8x128) ![0, 0, 0] S4x8x128.size inb, k0_pay4 (F := F)⟩ : View.Piece (Elt F) S4x8x128 .f32)] y
      = Scalar.ofBits (F := F) .f32 0x00000000#32 :=
  congrFun (View.canon_unit_zero (Val := Elt F) (S := S4x8x128) (e := .f32) hz3 inb (k0_pay4 (F := F))) y

/-! ## The two control cases -/

/-- A later point: each entry of slab k gains part k. -/
theorem out_B (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4x8x128 .f32) (harg7 : arg7.IsWhole) (hc0 : ¬cond0_0 i)
    (x0 : Vec F S1024x512 .f32) (x1 : Vec F S1024x1 .i32) (x2 : Vec F S256x512 .f32) (x3 : Vec F S1x256 .f32) (x4 : Vec F S1x256 .f32) (xo5 : Vec F S4x8x128 .f32) (k : Fin 4) (r : Fin 8) (l : Fin 128) :
    out0_B_5 c i arg2 harg2 arg3 harg3 arg4 harg4 arg5 harg5 arg6 harg6 arg7 harg7 hc0 x0 x1 x2 x3 x4 xo5 (ix3 k r l)
      = FloatOps.addf (xo5 (ix3 k r l)) (part k i x0 x1 x2 x3 x4) := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [load_whole harg2 x0 hz2, load_whole harg3 x1 hz2, load_whole harg4 x2 hz2, load_whole harg5 x3 hz2,
    load_whole harg6 x4 hz2]
  match k with
  | 0 =>
    refine (canon_skip (o := 3) _ _ _ 0 (by decide) r l).trans ?_
    refine (canon_skip (o := 2) _ _ _ 0 (by decide) r l).trans ?_
    refine (canon_skip (o := 1) _ _ _ 0 (by decide) r l).trans ?_
    refine (canon_slab (o := 0) _ _ _ 0 rfl r l).trans ?_
    refine (pay16_apply _ _ r l).trans ?_
    exact congrArg₂ _ (load_slab harg7 xo5 (o := 0) _ 0 rfl r l) rfl
  | 1 =>
    refine (canon_skip (o := 3) _ _ _ 1 (by decide) r l).trans ?_
    refine (canon_skip (o := 2) _ _ _ 1 (by decide) r l).trans ?_
    refine (canon_slab (o := 1) _ _ _ 1 rfl r l).trans ?_
    refine (pay1_apply _ _ r l).trans ?_
    rw [pay17_apply, pay18_eq]
    exact congrArg₂ _ (load_slab harg7 xo5 (o := 1) _ 1 rfl r l) rfl
  | 2 =>
    refine (canon_skip (o := 3) _ _ _ 2 (by decide) r l).trans ?_
    refine (canon_slab (o := 2) _ _ _ 2 rfl r l).trans ?_
    refine (pay2_apply _ _ r l).trans ?_
    exact congrArg₂ _ (load_slab harg7 xo5 (o := 2) _ 2 rfl r l) rfl
  | 3 =>
    refine (canon_slab (o := 3) _ _ _ 3 rfl r l).trans ?_
    refine (pay3_apply _ _ r l).trans ?_
    exact congrArg₂ _ (load_slab harg7 xo5 (o := 3) _ 3 rfl r l) rfl

/-- A core's first point: each entry of slab k is zero plus part k. -/
theorem out_A (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4x8x128 .f32) (harg7 : arg7.IsWhole) (hc0 : cond0_0 i)
    (x0 : Vec F S1024x512 .f32) (x1 : Vec F S1024x1 .i32) (x2 : Vec F S256x512 .f32) (x3 : Vec F S1x256 .f32) (x4 : Vec F S1x256 .f32) (k : Fin 4) (r : Fin 8) (l : Fin 128) :
    out0_A_5 c i arg2 harg2 arg3 harg3 arg4 harg4 arg5 harg5 arg6 harg6 arg7 harg7 hc0 x0 x1 x2 x3 x4 (ix3 k r l)
      = FloatOps.addf (Scalar.ofBits (F := F) .f32 0x00000000#32) (part k i x0 x1 x2 x3 x4) := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [load_whole harg2 x0 hz2, load_whole harg3 x1 hz2, load_whole harg4 x2 hz2, load_whole harg5 x3 hz2,
    load_whole harg6 x4 hz2]
  match k with
  | 0 =>
    refine (canon_skip (o := 3) _ _ _ 0 (by decide) r l).trans ?_
    refine (canon_skip (o := 2) _ _ _ 0 (by decide) r l).trans ?_
    refine (canon_skip (o := 1) _ _ _ 0 (by decide) r l).trans ?_
    refine (canon_slab (o := 0) _ _ _ 0 rfl r l).trans ?_
    refine (pay16_apply _ _ r l).trans ?_
    refine congrArg₂ _ ?_ rfl
    refine (readCov_slab (o := 0) _ _ _ 0 rfl r l).trans ?_
    exact canon_zero _ _
  | 1 =>
    refine (canon_skip (o := 3) _ _ _ 1 (by decide) r l).trans ?_
    refine (canon_skip (o := 2) _ _ _ 1 (by decide) r l).trans ?_
    refine (canon_slab (o := 1) _ _ _ 1 rfl r l).trans ?_
    refine (pay1_apply _ _ r l).trans ?_
    rw [pay17_apply, pay18_eq]
    refine congrArg₂ _ ?_ rfl
    refine (readCov_slab (o := 1) _ _ _ 1 rfl r l).trans ?_
    refine (canon_skip (o := 0) _ _ _ 1 (by decide) r l).trans ?_
    exact canon_zero _ _
  | 2 =>
    refine (canon_skip (o := 3) _ _ _ 2 (by decide) r l).trans ?_
    refine (canon_slab (o := 2) _ _ _ 2 rfl r l).trans ?_
    refine (pay2_apply _ _ r l).trans ?_
    refine congrArg₂ _ ?_ rfl
    refine (readCov_slab (o := 2) _ _ _ 2 rfl r l).trans ?_
    refine (canon_skip (o := 1) _ _ _ 2 (by decide) r l).trans ?_
    refine (canon_skip (o := 0) _ _ _ 2 (by decide) r l).trans ?_
    exact canon_zero _ _
  | 3 =>
    refine (canon_slab (o := 3) _ _ _ 3 rfl r l).trans ?_
    refine (pay3_apply _ _ r l).trans ?_
    refine congrArg₂ _ ?_ rfl
    refine (readCov_slab (o := 3) _ _ _ 3 rfl r l).trans ?_
    refine (canon_skip (o := 2) _ _ _ 3 (by decide) r l).trans ?_
    refine (canon_skip (o := 1) _ _ _ 3 (by decide) r l).trans ?_
    refine (canon_skip (o := 0) _ _ _ 3 (by decide) r l).trans ?_
    exact canon_zero _ _

end Cert.KernelIdeal.Pieces

end
-- ==== Proof.Accum.lean ====
/-
  The output block after point n, at the ideal instance: the sum of the tile numbers of the points of n's core run so far.

  Points run core by core, 32 to a core; the block is reset at a core's first point (n % 32 = 0) and accumulated after.
  So after point n entry (k, r, l) holds the sum, over the points 32 * (n / 32) .. n, of what each adds to slab k.
-/
import proofs.«133286_j10222022165009_1_alg».proof.Proof.Pieces
import Idealize.ShloMosaic.PureOps.Ideal.Laws

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Tile

variable (m : (ℓ : Loc nD τ sig) → Buf (Elt Ideal) ℓ)

/-- What point n adds to slab k (zero past the grid). -/
def Mt (c : Dev nD) (n : ℕ) (k : Fin 4) : EReal :=
  if h : n < cfg0.N then
    part (F := Ideal) k (grid0.coords ⟨n, h⟩) (iblk m c 0 ⟨n, h⟩) (iblk m c 1 ⟨n, h⟩) (iblk m c 2 ⟨n, h⟩) (iblk m c 3 ⟨n, h⟩) (iblk m c 4 ⟨n, h⟩)
  else 0

/-- Inside the grid, what point n adds to slab k is the part of the point's blocks. -/
theorem Mt_of_lt (c : Dev nD) (n : ℕ) (h : n < cfg0.N) (k : Fin 4) :
    Mt m c n k = part (F := Ideal) k (grid0.coords ⟨n, h⟩) (iblk m c 0 ⟨n, h⟩) (iblk m c 1 ⟨n, h⟩) (iblk m c 2 ⟨n, h⟩) (iblk m c 3 ⟨n, h⟩) (iblk m c 4 ⟨n, h⟩) :=
  dif_pos h

/-- At a run's first point the block holds that point's additions alone: zero plus part k. -/
theorem at_first (c : Dev nD) (n : ℕ) (h : n < cfg0.N) (h0 : n % 32 = 0) (k : Fin 4) (r : Fin 8) (l : Fin 128) :
    outsAt0 (F := Ideal) m c n h (ix3 k r l) = Mt m c n k := by
  rw [Mt_of_lt m c n h k]
  refine (congrFun (outsAt0_A m c ⟨n, h⟩ h0) (ix3 k r l)).trans ?_
  refine (Pieces.out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) k r l).trans ?_
  show Ideal.ofBits .f32 0x00000000#32 + _ = _
  rw [Ideal.ofBits_zero_f32, zero_add]

/-- After point n, entry (k, r, l) of the block is the sum of the additions of the points of n's run up to n. -/
theorem outsAt_eq (c : Dev nD) (n : ℕ) (h : n < cfg0.N) (k : Fin 4) (r : Fin 8) (l : Fin 128) :
    outsAt0 (F := Ideal) m c n h (ix3 k r l) = ∑ s ∈ Finset.range (n % 32 + 1), Mt m c (n / 32 * 32 + s) k := by
  induction n with
  | zero =>
    -- the run's first point: the sum has the one term s = 0
    refine (at_first m c 0 h rfl k r l).trans ?_
    rw [Finset.sum_range_one]
  | succ n ih =>
    have hN : cfg0.N = 64 := N_0
    by_cases h0 : (n + 1) % 32 = 0
    · -- a reset: the sum has the one term s = 0, at the point itself
      refine (at_first m c (n + 1) h h0 k r l).trans ?_
      rw [h0, Finset.sum_range_one, show (n + 1) / 32 * 32 + 0 = n + 1 by omega]
    · -- an accumulation: the entry the point before left, plus this point's part
      have hmod : (n + 1) % 32 = n % 32 + 1 := by omega
      have hdiv : (n + 1) / 32 = n / 32 := by omega
      refine (congrFun (outsAt0_B m c ⟨n + 1, h⟩ h0) (ix3 k r l)).trans ?_
      refine (Pieces.out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hc => h0 ((hcond0_0 ⟨n + 1, h⟩).mp hc)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)) k r l).trans ?_
      show outsAt0 m c n (Nat.lt_of_succ_lt h) (ix3 k r l) + _ = _
      rw [hmod, hdiv, Finset.sum_range_succ, show n / 32 * 32 + (n % 32 + 1) = n + 1 by omega,
        Mt_of_lt m c (n + 1) h k, ih (Nat.lt_of_succ_lt h)]

end Cert.KernelIdeal.Accum

end
-- ==== Proof.OutArr.lean ====
/-
  The result array of the kernel region after the run, at the ideal instance.

  The output window's block (4, 8, 128) sits at rows 8 * c .. 8 * c + 7 of the [4, 16, 128] array for core coordinate c,
  and is written back once, after the core's last point (n % 32 = 31), when it holds the core's 32 tiles' sum.
  So entry (k, q, l) of the array ends at the sum over the 32 points of core q / 8 of what each adds to slab k.
-/
import proofs.«133286_j10222022165009_1_alg».proof.Proof.Accum
import Idealize.ShloMosaic.Lib.Pipeline.Value

noncomputable section

namespace Cert.KernelIdeal.OutArr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Accum

variable (m : (ℓ : Loc nD τ sig) → Buf (Elt Ideal) ℓ)

/-- Core cc's total for slab k: its 32 points' additions. -/
def coreTot (c : Dev nD) (cc : ℕ) (k : Fin 4) : EReal := ∑ s ∈ Finset.range 32, Mt m c (32 * cc + s) k

/-- The result array: entry (k, q, l) is core q / 8's total for slab k. -/
def outArr (c : Dev nD) : Buf (Elt Ideal) ((c : Thread nD τ).loc main_v3) :=
  fun i => coreTot m c ((i 1).val / 8) ⟨(i 0).val, (i 0).isLt⟩

/-- The output window's block index at point t, decided over the grid: (0, t / 32, 0). -/
theorem idx5 : ∀ t : Fin cfg0.N, win0_5.index t (0 : Fin 3) = 0 ∧ win0_5.index t (1 : Fin 3) = t.val / 32
    ∧ win0_5.index t (2 : Fin 3) = 0 :=
  (by decide +kernel : ∀ t : Fin grid0.N, _)

/-- After a core's last point (t % 32 = 31) every entry of slab k of the block is the core's total for slab k:
    the running sum has all 32 terms, and the run starts at 32 * (t / 32). -/
theorem outs_last (c : Dev nD) (t : Fin cfg0.N) (h31 : t.val % 32 = 31) (k : Fin 4) (r : Fin 8) (l : Fin 128) :
    outsAt0 (F := Ideal) m c t.val t.isLt (ix3 k r l) = coreTot m c (t.val / 32) k := by
  refine (outsAt_eq m c t.val t.isLt k r l).trans ?_
  unfold coreTot
  rw [h31, show t.val / 32 * 32 = 32 * (t.val / 32) by omega]

/-- What a write-back point writes is its block of outArr: entry (k, r, l) of the block sits at (k, 8 * (t / 32) + r, l)
    of the array, whose row's core is (8 * (t / 32) + r) / 8 = t / 32. -/
theorem flushed_eq (c : Dev nD) (t : Fin cfg0.N) (hf : (cfg0.win 5).flush t = true) :
    (dats (F := Ideal) m 0 c).flushed 5 t = ((cfg0.win 5).blk t).view.read (Elt Ideal) (outArr m c) := by
  have h31 : t.val % 32 = 31 := (flush0_5 t).mp hf
  obtain ⟨e0, e1, e2⟩ := idx5 t
  show (cfg0.win 5).cut (grid0.coords t) ((dats m 0 c).after 5 t) = _
  rw [after0_5]
  funext y
  rw [View.read_apply]
  show outsAt0 m c t.val t.isLt ((cfg0.win 5).xinj (grid0.coords t) y) = outArr m c (((cfg0.win 5).blk t).view.emb y)
  refine (congrArg (outsAt0 m c t.val t.isLt) (eq_ix3 (n0 := 4) (n1 := 8) (n2 := 128) _)).trans ?_
  refine (outs_last m c t h31 _ _ _).trans ?_
  unfold outArr
  -- an element's place in the array: block index times block size plus the coordinate inside the block
  have h0 : ((((cfg0.win 5).blk t).view.emb y 0 : Fin _) : Nat) = win0_5.index t (0 : Fin 3) * 4 + 1 * (y 0).val := rfl
  have h1 : ((((cfg0.win 5).blk t).view.emb y 1 : Fin _) : Nat) = win0_5.index t (1 : Fin 3) * 8 + 1 * (y 1).val := rfl
  have hy1 : (y 1).val < 8 := (y 1).isLt
  congr 1
  · rw [h1, e1]; omega
  · apply Fin.ext
    show (y 0).val = ((((cfg0.win 5).blk t).view.emb y 0 : Fin _) : Nat)
    rw [h0, e0]; omega

/-- The region leaves the result array at outArr. -/
theorem final5 (c : Dev nD) : (dats (F := Ideal) m 0 c).arrAt 5 cfg0.N = outArr m c := by
  have hN : cfg0.N = 64 := N_0
  -- entry (k, q, l) lies in the block written back at the last point of core q / 8
  refine (dats m 0 c).arrAt_eq_of_cover 5 (outArr m c) (flushed_eq m c) fun i => ?_
  have hi0 : (i 0 : Nat) < 4 := (i 0).isLt
  have hi1 : (i 1 : Nat) < 16 := (i 1).isLt
  have hi2 : (i 2 : Nat) < 128 := (i 2).isLt
  have ht : 32 * ((i 1 : Nat) / 8) + 31 < cfg0.N := by omega
  refine ⟨⟨32 * ((i 1 : Nat) / 8) + 31, ht⟩, (flush0_5 _).mpr (by show (32 * ((i 1 : Nat) / 8) + 31) % 32 = 31; omega), ?_⟩
  obtain ⟨e0, e1, e2⟩ := idx5 ⟨32 * ((i 1 : Nat) / 8) + 31, ht⟩
  show i ∈ ((View.whole main_v3).slice (win0_5.rect ⟨32 * ((i 1 : Nat) / 8) + 31, ht⟩)).set
  rw [View.set_slice_whole, Rect.mem_set_unit]
  intro a
  match a with
  | ⟨0, _⟩ =>
    show win0_5.index ⟨32 * ((i 1 : Nat) / 8) + 31, ht⟩ (0 : Fin 3) * 4 ≤ (i 0 : Nat) ∧ (i 0 : Nat) < win0_5.index ⟨32 * ((i 1 : Nat) / 8) + 31, ht⟩ (0 : Fin 3) * 4 + 4
    rw [e0]; omega
  | ⟨1, _⟩ =>
    show win0_5.index ⟨32 * ((i 1 : Nat) / 8) + 31, ht⟩ (1 : Fin 3) * 8 ≤ (i 1 : Nat) ∧ (i 1 : Nat) < win0_5.index ⟨32 * ((i 1 : Nat) / 8) + 31, ht⟩ (1 : Fin 3) * 8 + 8
    rw [e1]; show (32 * ((i 1 : Nat) / 8) + 31) / 32 * 8 ≤ (i 1 : Nat) ∧ (i 1 : Nat) < (32 * ((i 1 : Nat) / 8) + 31) / 32 * 8 + 8; omega
  | ⟨2, _⟩ =>
    show win0_5.index ⟨32 * ((i 1 : Nat) / 8) + 31, ht⟩ (2 : Fin 3) * 128 ≤ (i 2 : Nat) ∧ (i 2 : Nat) < win0_5.index ⟨32 * ((i 1 : Nat) / 8) + 31, ht⟩ (2 : Fin 3) * 128 + 128
    rw [e2]; omega

end Cert.KernelIdeal.OutArr

end
-- ==== Proof.KTail.lean ====
/-
  The host operations after the kernel region, as one function of the region's result array.

  The array [4, 16, 128] is viewed as [4, 2, 8, 128]; entry (0, 0) of each of the eight [8, 128] slabs is kept, giving
  a [4, 2] matrix (slab, core); its rows are summed over the two cores from a zero initial value, and the result is
  total 2 / total 0 + total 3 / total 1. At the ideal instance the row sum of row k is 0 + (A (k, 0, 0) + A (k, 8, 0)).
-/
import proofs.«133286_j10222022165009_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.KTail

open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F]

/-- The [4, 2] matrix of the slabs' first entries, per core. -/
def firsts (A : (⟨S4x16x128, .f32⟩ : BufTy).Contents (Elt F)) : (⟨S4x2, .f32⟩ : BufTy).Contents (Elt F) :=
  shapeCast S4x2
    (extractStridedSlice S4x2x1x1 ![0, 0, 0, 0] (shapeCast S4x2x8x128 A shapeCasts_S4x16x128_S4x2x8x128)
      slices_S4x2x8x128_S4x2x1x1_0_0_0_0)
    shapeCasts_S4x2x1x1_S4x2

/-- The four totals over the two cores. -/
def totals (A : (⟨S4x16x128, .f32⟩ : BufTy).Contents (Elt F)) : (⟨S4, .f32⟩ : BufTy).Contents (Elt F) :=
  Host.reduceAdd (firsts A) (constant S_ .f32 0x00000000#32) reducesTo_S4x2_S4_d1 h_S_

/-- The tail: total 2 / total 0 + total 3 / total 1. -/
def tailFn (A : (⟨S4x16x128, .f32⟩ : BufTy).Contents (Elt F)) : (⟨S_, .f32⟩ : BufTy).Contents (Elt F) :=
  addf
    (Host.divf (shapeCast S_ (extractStridedSlice S1 ![2] (totals A) slices_S4_S1_2) shapeCasts_S1_S_)
      (shapeCast S_ (extractStridedSlice S1 ![0] (totals A) slices_S4_S1_0) shapeCasts_S1_S_))
    (Host.divf (shapeCast S_ (extractStridedSlice S1 ![3] (totals A) slices_S4_S1_3) shapeCasts_S1_S_)
      (shapeCast S_ (extractStridedSlice S1 ![1] (totals A) slices_S4_S1_1) shapeCasts_S1_S_))

/-- The sixteen operations after the region leave the result at the tail of what the region's array holds. -/
theorem after_tail (W : Valuation τ sig (Elt F)) :
    StableHlo.after hostOps1 W (Proc.devRef .tc main_v18) = tailFn (W (Proc.devRef .tc main_v3)) := by
  after_results
  rfl

variable (m : (ℓ : Loc nD τ sig) → Buf (Elt F) ℓ)

/-- After the whole program the result is the tail of the region's result array. -/
theorem tail_eq (c : Dev nD) :
    Pipeline.afterTail₀ cfgs (dats m) 0 (V0 m) [hostOps1] c main_v18 = tailFn ((dats m 0 c).arrAt 5 cfg0.N) := by
  unfold Pipeline.afterTail₀
  show StableHlo.after hostOps1 _ (Proc.devRef .tc main_v18) = _
  rw [after_tail]
  exact congrArg tailFn (Pipeline.withArrays_arr (cfgs 0).spec launch0.win.arr_inj c (V0 m c) (fun w => (dats m 0 c).arrAt w (cfgs 0).N) 5)

end Cert.KernelIdeal.KTail

end
-- ==== Proof.KTailVal.lean ====
/-
  The tail at the ideal instance: with tot k = A (k, 0, 0) + A (k, 8, 0), the first entries of slab k's two core blocks,
  the result is tot 2 / tot 0 + tot 3 / tot 1 (the host's sum over the two cores starts from a zero word, and zero plus
  a sum is the sum).
-/
import proofs.«133286_j10222022165009_1_alg».proof.Proof.KTail

noncomputable section

namespace Cert.KernelIdeal.KTail

open Idealize.ShloMosaic Idealize.ShloMosaic.TcCoe Idealize.SL.Sem Idealize.ShloMosaic.ValueIdx
open Cert.KernelIdeal Cert.KernelIdeal.Gen

/-- Slab k's total over the two cores, read off the result array. -/
def tot (A : (⟨S4x16x128, .f32⟩ : BufTy).Contents (Elt Ideal)) (k : Fin 4) : EReal :=
  A (ix3 k (0 : Fin 16) (0 : Fin 128)) + A (ix3 k (8 : Fin 16) (0 : Fin 128))

section Layout
variable {α : Type}

/-- The view of [4, 16, 128] as [4, 2, 8, 128] reads, at (k, c, r, l), row 8 c + r of slab k: both have row-major
position ((2 k + c) 8 + r) 128 + l. -/
theorem view_apply (x : S4x16x128.Idx → α) (h : S4x16x128.ShapeCasts S4x2x8x128)
    (k : Fin 4) (c : Fin 2) (r : Fin 8) (l : Fin 128) :
    shapeCast S4x2x8x128 x h (ix4 k c r l) = x (ix3 k (⟨8 * c.val + r.val, by omega⟩ : Fin 16) l) :=
  shapeCast_apply x h _ _ (by
    rw [Shape.rowMajor_val_three, Shape.rowMajor_val_four]
    show (k.val * 16 + (8 * c.val + r.val)) * 128 + l.val = ((k.val * 2 + c.val) * 8 + r.val) * 128 + l.val
    omega)

/-- The slice [0:4, 0:2, 0:1, 0:1] of a [4, 2, 8, 128] array reads entry (0, 0) of slab (k, c). -/
theorem corner_apply (x : S4x2x8x128.Idx → α) (h : S4x2x8x128.Slices ![0, 0, 0, 0] S4x2x1x1)
    (k : Fin 4) (c : Fin 2) (u v : Fin 1) :
    extractStridedSlice S4x2x1x1 ![0, 0, 0, 0] x h (ix4 k c u v) = x (ix4 k c (0 : Fin 8) (0 : Fin 128)) :=
  extractStridedSlice_apply _ x h _ _ fun a => match a with
    | ⟨0, _⟩ => by show k.val = 0 + k.val; omega
    | ⟨1, _⟩ => by show c.val = 0 + c.val; omega
    | ⟨2, _⟩ => by show 0 = 0 + u.val; omega
    | ⟨3, _⟩ => by show 0 = 0 + v.val; omega

/-- A [4, 2, 1, 1] array viewed as [4, 2] reads (k, c, 0, 0) at (k, c). -/
theorem flat_apply (x : S4x2x1x1.Idx → α) (h : S4x2x1x1.ShapeCasts S4x2) (k : Fin 4) (c : Fin 2) :
    shapeCast S4x2 x h (ix2 k c) = x (ix4 k c (0 : Fin 1) (0 : Fin 1)) :=
  shapeCast_apply x h _ _ (by
    rw [Shape.rowMajor_val_four, Shape.rowMajor_val_two]
    show ((k.val * 2 + c.val) * 1 + 0) * 1 + 0 = k.val * 2 + c.val
    omega)

/-- Entry k of a length-4 vector, cut out as a one-element array and viewed as a scalar. -/
theorem pick_apply (t : S4.Idx → α) (k : Fin 4) (h : S4.Slices ![k.val] S1) (h' : S1.ShapeCasts S_) (i : S_.Idx) :
    shapeCast S_ (extractStridedSlice S1 ![k.val] t h) h' i = t (ix1 k) := by
  refine (shapeCast_apply _ h' i (ix1 (0 : Fin 1)) ?_).trans ?_
  · rw [Shape.rowMajor_val_one]
    exact (Shape.rowMajorPi_zero _ i).symm
  · exact extractStridedSlice_apply _ t h _ _ fun a => match a with
      | ⟨0, _⟩ => by show k.val = k.val + 0; omega

end Layout

/-- The matrix of first entries at (k, c) is the array at row 8 c of slab k, lane 0. -/
theorem firsts_apply (A : (⟨S4x16x128, .f32⟩ : BufTy).Contents (Elt Ideal)) (k : Fin 4) (c : Fin 2) :
    firsts (F := Ideal) A (ix2 k c) = A (ix3 k (⟨8 * c.val, by omega⟩ : Fin 16) (0 : Fin 128)) := by
  unfold firsts
  refine (flat_apply _ _ k c).trans ?_
  refine (corner_apply _ _ k c 0 0).trans ?_
  exact view_apply A _ k c 0 0

/-- The host's sum of row k over the two cores, from the zero word, is the slab's total. -/
theorem totals_apply (A : (⟨S4x16x128, .f32⟩ : BufTy).Contents (Elt Ideal)) (k : Fin 4) :
    totals (F := Ideal) A (ix1 k) = tot A k := by
  unfold totals
  refine (hostReduceAdd_apply _ _ _ _ _).trans ?_
  refine (Ideal.hostReduceAdd_single reducesTo_S4x2_S4_d1 (by decide) _ _ _).trans ?_
  rw [constant_apply, Ideal.ofBits_zero_f32, zero_add]
  show ∑ c : Fin 2, firsts (F := Ideal) A _ = _
  rw [Fin.sum_univ_two]
  unfold tot
  refine congrArg₂ (· + ·) ?_ ?_
  · refine (congrArg (firsts (F := Ideal) A) (?_ : _ = ix2 k (0 : Fin 2))).trans (firsts_apply A k 0)
    exact funext fun a => Fin.ext (by match a with | ⟨0, _⟩ => rfl | ⟨1, _⟩ => rfl)
  · refine (congrArg (firsts (F := Ideal) A) (?_ : _ = ix2 k (1 : Fin 2))).trans (firsts_apply A k 1)
    exact funext fun a => Fin.ext (by match a with | ⟨0, _⟩ => rfl | ⟨1, _⟩ => rfl)

theorem tailFn_ideal (A : (⟨S4x16x128, .f32⟩ : BufTy).Contents (Elt Ideal)) (i : S_.Idx) :
    tailFn (F := Ideal) A i = Ideal.div (tot A 2) (tot A 0) + Ideal.div (tot A 3) (tot A 1) := by
  have p : ∀ (k : Fin 4) (h : S4.Slices ![k.val] S1),
      shapeCast S_ (extractStridedSlice S1 ![k.val] (totals (F := Ideal) A) h) shapeCasts_S1_S_ i = tot A k :=
    fun k h => (pick_apply _ k h _ i).trans (totals_apply A k)
  unfold tailFn
  refine (addf_apply _ _ i).trans ?_
  refine congrArg₂ (· + ·) ?_ ?_
  · refine (hostDivf_apply _ _ i).trans ?_
    exact congrArg₂ Ideal.div (p 2 slices_S4_S1_2) (p 0 slices_S4_S1_0)
  · refine (hostDivf_apply _ _ i).trans ?_
    exact congrArg₂ Ideal.div (p 3 slices_S4_S1_3) (p 1 slices_S4_S1_1)

end Cert.KernelIdeal.KTail

end
-- ==== Proof.Spec.lean ====
/-
  The loss both programs compute, written once over plain index types.

  For a class column j (a proxy row p, its effective number ef, its learned similarity ls, its index as a
  word jw) and the whole batch (X the embeddings, T the targets), col gives the column's four contributions:
    0  presence: 1 if some sample's target is j, else 0;
    1  the mean negative weight of the column (0 when no sample is a negative of it);
    2  log(1 + sum over b of hot * exp(32 * (0.1 - cos) * mask));
    3  log(1 + sum over b of cold * exp(32 * (cos + 0.1) * mask)),
  with cos b = sum over e of X b e * (p e * rsqrt(sum of squares of p + eps)), hot b = [T b = j], cold = 1 - hot.
  The loss is (sum_j col 2) / (sum_j col 0) + (sum_j col 3) / (sum_j col 1).

  tileSum and coreSum name the regrouping of the 16384 columns into two cores of 32 tiles of 256 columns.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic

/-- The float words the two programs share, kept as words: 1.0, 0.1, 32.0 and the eps of the row norm. -/
abbrev one : EReal := Ideal.ofBits .f32 0x3F800000#32
abbrev tenth : EReal := Ideal.ofBits .f32 0x3DCCCCCD#32
abbrev c32 : EReal := Ideal.ofBits .f32 0x42000000#32
abbrev eps : EReal := Ideal.ofBits .f32 0x2B8CBCCC#32

/-- A condition bit as an extended real: 0 or 1. -/
def ind (b : BitVec 1) : EReal := ((b.toNat : ℝ) : EReal)

section Column

variable (X : Fin 1024 → Fin 512 → EReal) (T : Fin 1024 → BitVec 32)
variable (p : Fin 512 → EReal) (ef ls : EReal) (jw : BitVec 32)

/-- The reciprocal norm of the proxy row: rsqrt of its sum of squares plus eps. -/
def nrm : EReal := Ideal.rsqrt ((∑ e : Fin 512, p e * p e) + eps)

/-- The cosine of sample b against the normalized proxy row. -/
def cosv (b : Fin 1024) : EReal := ∑ e : Fin 512, X b e * (p e * nrm p)

/-- Sample b is a positive of the column: its target is the column's index. -/
def hot (b : Fin 1024) : EReal := ind (IntOp.cmpi .eq (T b) jw)

/-- Sample b is a negative of the column. -/
def cold (b : Fin 1024) : EReal := one - hot T jw b

/-- The column's outlier threshold: ls - ((1 + 1 * (1 - ls)) * (1 / (1 + log1p ef)) + 0.1). -/
def osim : EReal := ls - ((one + one * (one - ls)) * Ideal.div one (one + Ideal.log1p ef) + tenth)

/-- The down-weight of an outlying negative: 1 / max(1, ef). -/
def inve : EReal := Ideal.div one (max one ef)

/-- The negative weight of sample b: the down-weight where its cosine is below the threshold, else 1. -/
def negv (b : Fin 1024) : EReal := Scalar.select (Ideal.cmp .olt (cosv X p b) (osim ef ls)) (inve ef) one

/-- The weight in the exponent: the negative weight at negatives, 1 at positives. -/
def mask (b : Fin 1024) : EReal := Scalar.select (Ideal.cmp .ogt (cold T jw b) 0) (negv X p ef ls b) one

/-- The number of negatives of the column. -/
def ncnt : EReal := ∑ b : Fin 1024, cold T jw b

/-- The column's four contributions. -/
def col (k : Fin 4) : EReal :=
  match k with
  | 0 => ind (Ideal.cmp .ogt (∑ b : Fin 1024, hot T jw b) 0)
  | 1 => Scalar.select (Ideal.cmp .ogt (ncnt T jw) 0)
          (Ideal.div (∑ b : Fin 1024, cold T jw b * negv X p ef ls b) (max (ncnt T jw) one)) 0
  | 2 => Ideal.log1p (∑ b : Fin 1024, hot T jw b * Ideal.exp (c32 * (tenth - cosv X p b) * mask X T p ef ls jw b))
  | 3 => Ideal.log1p (∑ b : Fin 1024, cold T jw b * Ideal.exp (c32 * (cosv X p b + tenth) * mask X T p ef ls jw b))

end Column

section Whole

variable (X : Fin 1024 → Fin 512 → EReal) (T : Fin 1024 → BitVec 32)
variable (Pr : Fin 16384 → Fin 512 → EReal) (Ef Ls : Fin 16384 → EReal)

/-- Contribution k of column j of the whole arrays. -/
def gcol (k : Fin 4) (j : Fin 16384) : EReal := col X T (Pr j) (Ef j) (Ls j) (BitVec.ofNat 32 j.val) k

/-- The loss. -/
def loss : EReal :=
  Ideal.div (∑ j, gcol X T Pr Ef Ls 2 j) (∑ j, gcol X T Pr Ef Ls 0 j)
    + Ideal.div (∑ j, gcol X T Pr Ef Ls 3 j) (∑ j, gcol X T Pr Ef Ls 1 j)

end Whole

/-! ## Regrouping the columns by core and tile -/

/-- The sum of f over the 256 columns of tile n (tiles past the 64th are empty). -/
def tileSum (f : Fin 16384 → EReal) (n : ℕ) : EReal :=
  if h : n < 64 then ∑ l : Fin 256, f ⟨256 * n + l.val, by have := l.isLt; omega⟩ else 0

/-- The sum over the 32 tiles of core cc. -/
def coreSum (f : Fin 16384 → EReal) (cc : ℕ) : EReal := ∑ s ∈ Finset.range 32, tileSum f (32 * cc + s)

end Cert.Spec

end
-- ==== Proof.TileElems.lean ====
/-
  The body's values that have one entry per sample and tile column, read at (b, l) at the ideal instance: each is the
  specification's function of the tile's column l: the cosine (a matrix product against the proxy rows scaled by the
  reciprocal root of their sum of squares plus eps), the one-hot entry and its complement (the target against the
  column's index word), the negative weight and the exponent's weight.
-/
import proofs.«133286_j10222022165009_1_alg».proof.Proof.TileDefs
import proofs.«133286_j10222022165009_1_alg».proof.Proof.Spec
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.TileVal

open Idealize.ShloMosaic Idealize.ShloMosaic.ValueIdx Cert.KernelIdeal Cert.KernelIdeal.Gen Cert.KernelIdeal.Tile

variable (i : grid0.Coords) (x0 : Vec Ideal S1024x512 .f32) (x1 : Vec Ideal S1024x1 .i32) (x2 : Vec Ideal S256x512 .f32)
variable (x3 x4 : Vec Ideal S1x256 .f32)

/-- The point's blocks as plain functions of their coordinates: the embeddings, the targets, proxy row l of the tile. -/
abbrev Xk : Fin 1024 → Fin 512 → EReal := fun b e => x0 (ix2 b e)
abbrev Tk : Fin 1024 → BitVec 32 := fun b => x1 (ix2 b 0)
abbrev Pk (l : Fin 256) : Fin 512 → EReal := fun e => x2 (ix2 l e)

/-! ## Layout operations read at an index -/

section Layout
variable {α : Type}

/-- A [256] array cast to [256, 1] reads, at (l, u), the operand at l. -/
theorem cast_col256_apply (w : S256.Idx → α) (l : Fin 256) (u : Fin 1) :
    shapeCast S256x1 w shapeCasts_S256_S256x1 (ix2 l u) = w (ix1 l) :=
  shapeCast_apply w shapeCasts_S256_S256x1 _ _ (by
    have hu : u.val = 0 := by omega
    rw [Shape.rowMajor_val_two, Shape.rowMajor_val_one]
    show l.val = l.val * 1 + u.val
    omega)

/-- A [256, 1] column broadcast to [256, 512] reads, at (l, e), the column at (l, 0). -/
theorem bcast_col256_apply (c : S256x1.Idx → α) (l : Fin 256) (e : Fin 512) :
    broadcastTo S256x512 c broadcasts_S256x1_S256x512 (ix2 l e) = c (ix2 l (0 : Fin 1)) := by
  refine broadcastTo_apply c broadcasts_S256x1_S256x512 (ix2 l e) (ix2 l (0 : Fin 1)) fun ax => ?_
  match ax with
  | ⟨0, _⟩ => rfl
  | ⟨1, _⟩ => rfl

/-- A [1024, 1] column broadcast to [1024, 256] reads, at (b, l), the column at (b, 0). -/
theorem bcast_col1024_apply (c : S1024x1.Idx → α) (b : Fin 1024) (l : Fin 256) :
    broadcastTo S1024x256 c broadcasts_S1024x1_S1024x256 (ix2 b l) = c (ix2 b (0 : Fin 1)) := by
  refine broadcastTo_apply c broadcasts_S1024x1_S1024x256 (ix2 b l) (ix2 b (0 : Fin 1)) fun ax => ?_
  match ax with
  | ⟨0, _⟩ => rfl
  | ⟨1, _⟩ => rfl

/-- A [1, 256] row broadcast to [1024, 256] reads, at (b, l), the row at (0, l). -/
theorem bcast_row_apply (r : S1x256.Idx → α) (b : Fin 1024) (l : Fin 256) :
    broadcastTo S1024x256 r broadcasts_S1x256_S1024x256 (ix2 b l) = r (ix2 (0 : Fin 1) l) :=
  broadcastTo_1b_ab_apply r broadcasts_S1x256_S1024x256 b l

end Layout

/-! ## The row sum and the matrix product read at an index -/

/-- The sum along axis 1 of a [256, 512] array, at l, is the sum over e of the array at (l, e). -/
theorem rowsum_apply (v : FVec Ideal S256x512 .f32) (hφ : FKind.Formats .f32)
    (hacc : (0x00000000#32 : BitVec 32) = FKind.add.neutral .f32 hφ) (l : Fin 256) :
    multiReduction .add [1] S256 v 0x00000000#32 reduces_S256x512_S256 hφ hacc (ix1 l)
      = ∑ e : Fin 512, v (ix2 l e) := by
  refine (Ideal.multiReduction_add_single v 0x00000000#32 reduces_S256x512_S256 hφ hacc (ix1 l)).trans ?_
  show ∑ e : Fin 512, v (reduces_S256x512_S256.lift (ix1 l) e) = ∑ e : Fin 512, v (ix2 l e)
  refine Finset.sum_congr rfl fun e _ => congrArg v ?_
  funext a
  match a with
  | ⟨0, _⟩ => rfl
  | ⟨1, _⟩ => rfl

theorem lhs_cos_0 (j : S1024x256.Idx) (q : dot_S1024x512_S256x512_S1024x256_1_1_0_0_n_n.contr.Idx) :
    (dot_S1024x512_S256x512_S1024x256_1_1_0_0_n_n.lhsIdx j q 0).val = (j 0).val := by
  unfold DotDims.lhsIdx
  rw [dif_neg (show ¬(0 : Fin S1024x512.rank) ∈ dot_S1024x512_S256x512_S1024x256_1_1_0_0_n_n.lhsBatch by decide), dif_pos (show (0 : Fin S1024x512.rank) ∈ dot_S1024x512_S256x512_S1024x256_1_1_0_0_n_n.lhsNonContracting by decide)]
  rfl
theorem lhs_cos_1 (j : S1024x256.Idx) (q : dot_S1024x512_S256x512_S1024x256_1_1_0_0_n_n.contr.Idx) :
    (dot_S1024x512_S256x512_S1024x256_1_1_0_0_n_n.lhsIdx j q 1).val = (q ⟨0, by decide⟩).val :=
  dot_S1024x512_S256x512_S1024x256_1_1_0_0_n_n.lhsIdx_val_of_single rfl j q
theorem rhs_cos_0 (j : S1024x256.Idx) (q : dot_S1024x512_S256x512_S1024x256_1_1_0_0_n_n.contr.Idx) :
    (dot_S1024x512_S256x512_S1024x256_1_1_0_0_n_n.rhsIdx j q 0).val = (j 1).val := by
  unfold DotDims.rhsIdx
  rw [dif_neg (show ¬(0 : Fin S256x512.rank) ∈ dot_S1024x512_S256x512_S1024x256_1_1_0_0_n_n.rhsBatch by decide), dif_pos (show (0 : Fin S256x512.rank) ∈ dot_S1024x512_S256x512_S1024x256_1_1_0_0_n_n.rhsNonContracting by decide)]
  rfl
theorem rhs_cos_1 (j : S1024x256.Idx) (q : dot_S1024x512_S256x512_S1024x256_1_1_0_0_n_n.contr.Idx) :
    (dot_S1024x512_S256x512_S1024x256_1_1_0_0_n_n.rhsIdx j q 1).val = (q ⟨0, by decide⟩).val :=
  dot_S1024x512_S256x512_S1024x256_1_1_0_0_n_n.rhsIdx_val_of_single rfl j q

/-- The matrix product into a zero accumulator, contracting axis 1 of both operands, at (b, l): the sum over e of the
    left operand at (b, e) times the right operand at (l, e). -/
theorem matmul_cos_apply {φ₁ φ₂ : FTy} (A : FVec Ideal S1024x512 φ₁) (B : FVec Ideal S256x512 φ₂) (b : Fin 1024) (l : Fin 256) :
    FloatOps.matmul dot_S1024x512_S256x512_S1024x256_1_1_0_0_n_n none A B (constant S1024x256 .f32 0x00000000#32) (ix2 b l)
      = ∑ e : Fin 512, A (ix2 b e) * B (ix2 l e) := by
  rw [Ideal.matmul_constant_zero_apply, ← Equiv.sum_comp (ValueIdx.contrEquiv1 dot_S1024x512_S256x512_S1024x256_1_1_0_0_n_n 512 rfl rfl).symm]
  refine Finset.sum_congr rfl fun k _ => ?_
  have hk := ValueIdx.contrEquiv1_symm_val dot_S1024x512_S256x512_S1024x256_1_1_0_0_n_n 512 rfl rfl k
  have el : dot_S1024x512_S256x512_S1024x256_1_1_0_0_n_n.lhsIdx (ix2 b l) ((ValueIdx.contrEquiv1 dot_S1024x512_S256x512_S1024x256_1_1_0_0_n_n 512 rfl rfl).symm k) = ix2 b k := funext fun a => Fin.ext (by
    match a with
    | ⟨0, _⟩ => exact lhs_cos_0 _ _
    | ⟨1, _⟩ => exact (lhs_cos_1 _ _).trans hk)
  have er : dot_S1024x512_S256x512_S1024x256_1_1_0_0_n_n.rhsIdx (ix2 b l) ((ValueIdx.contrEquiv1 dot_S1024x512_S256x512_S1024x256_1_1_0_0_n_n 512 rfl rfl).symm k) = ix2 l k := funext fun a => Fin.ext (by
    match a with
    | ⟨0, _⟩ => exact rhs_cos_0 _ _
    | ⟨1, _⟩ => exact (rhs_cos_1 _ _).trans hk)
  rw [el, er]

/-! ## The cosine -/

/-- The reciprocal norm the body lays along row l of the proxy tile: the specification's, of that row. -/
theorem nrm_apply (x2 : FVec Ideal S256x512 .f32) (l : Fin 256) (e : Fin 512) :
    (broadcastTo S256x512
        (rsqrt (addf (shapeCast S256x1 (multiReduction .add [1] S256 (mulf x2 x2) 0x00000000#32 reduces_S256x512_S256 (.inl rfl) rfl) shapeCasts_S256_S256x1)
          (broadcast S256x1 (Scalar.ofBits (F := Ideal) .f32 0x2B8CBCCC#32))) : FVec Ideal S256x1 .f32)
        broadcasts_S256x1_S256x512 : FVec Ideal S256x512 .f32) (ix2 l e)
      = Cert.Spec.nrm (fun e => x2 (ix2 l e)) := by
  refine (bcast_col256_apply _ l e).trans ?_
  unfold Cert.Spec.nrm
  show Ideal.rsqrt (shapeCast S256x1 (multiReduction .add [1] S256 (mulf x2 x2) 0x00000000#32 reduces_S256x512_S256 (.inl rfl) rfl) shapeCasts_S256_S256x1 (ix2 l (0 : Fin 1)) + Cert.Spec.eps) = _
  refine congrArg (fun t => Ideal.rsqrt (t + Cert.Spec.eps)) ?_
  refine (cast_col256_apply _ l 0).trans ?_
  exact rowsum_apply (mulf x2 x2) (.inl rfl) rfl l

theorem cos_apply (b : Fin 1024) (l : Fin 256) :
    cosT (F := Ideal) x0 x2 (ix2 b l) = Cert.Spec.cosv (Xk x0) (Pk x2 l) b := by
  unfold Cert.Spec.cosv
  show k0_pay5 x2 x0 (ix2 b l) = _
  unfold k0_pay5
  refine (matmul_cos_apply _ _ b l).trans ?_
  refine Finset.sum_congr rfl fun e _ => ?_
  exact congrArg (fun t => x0 (ix2 b e) * (x2 (ix2 l e) * t)) (nrm_apply x2 l e)

/-! ## The one-hot entry and its complement -/

/-- A condition bit widened to a word and converted signed is the bit as an extended real. -/
theorem sitofp_bit (c : BitVec 1) : FloatOps.sitofp (F := Ideal) .f32 (c.setWidth 32) = Cert.Spec.ind c := by
  show ((((c.setWidth 32).toInt : ℝ)) : EReal) = (((c.toNat : ℝ)) : EReal)
  rw [toInt_setWidth_bit]
  norm_cast

/-- The tile's column words: the tile's start word plus the lane number, at (0, l). -/
theorem colword_apply (w : BitVec 32) (u : Fin 1) (l : Fin 256) :
    addi (broadcast S1x256 w) (iota .tc S1x256 32 [1] iota_S1x256_d1_w32) (ix2 u l) = IntOp.addi w (BitVec.ofNat 32 l.val) := by
  show IntOp.addi w (iota .tc S1x256 32 [1] iota_S1x256_d1_w32 (ix2 u l)) = _
  rw [iota_single_apply]

/-- The targets laid along the 256 columns, at (b, l): the target of sample b. -/
theorem tgt_apply (x1 : IVec S1024x1 32) (b : Fin 1024) (l : Fin 256) :
    broadcastTo S1024x256 (shapeCast S1024x1 x1 shapeCasts_S1024x1_S1024x1) broadcasts_S1024x1_S1024x256 (ix2 b l)
      = x1 (ix2 b (0 : Fin 1)) := by
  refine (bcast_col1024_apply _ b l).trans ?_
  rw [shapeCast_self]

theorem hot_apply (b : Fin 1024) (l : Fin 256) :
    k0_pay6 (F := Ideal) i x1 (ix2 b l) = Cert.Spec.hot (Tk x1) (tileWord i l) b := by
  unfold Cert.Spec.hot tileWord k0_pay6
  refine (sitofp_bit _).trans ?_
  refine congrArg Cert.Spec.ind ?_
  refine congrArg₂ (IntOp.cmpi .eq) (tgt_apply x1 b l) ?_
  refine (bcast_row_apply _ b l).trans ?_
  exact colword_apply _ 0 l

theorem cold_apply (b : Fin 1024) (l : Fin 256) :
    k0_pay7 (F := Ideal) i x1 (ix2 b l) = Cert.Spec.cold (Tk x1) (tileWord i l) b := by
  unfold Cert.Spec.cold k0_pay7
  exact congrArg (fun t => Cert.Spec.one - t) (hot_apply i x1 b l)

/-! ## The negative weight and the exponent's weight -/

/-- The same-shape cast of the effective numbers is the identity. -/
theorem pay9_eq (x3 : Vec Ideal S1x256 .f32) : k0_pay9 (F := Ideal) x3 = x3 := by
  unfold k0_pay9
  exact shapeCast_self _ _

/-- The negative weights over any cosines c, effective numbers ef and learned similarities ls, at (b, l): the down-weight
    of column l where the cosine is below the column's threshold, else 1. -/
theorem pay10_apply (c : FVec Ideal S1024x256 .f32) (ef : FVec Ideal S1x256 .f32) (ls : Vec Ideal S1x256 .f32)
    (b : Fin 1024) (l : Fin 256) :
    k0_pay10 c ef ls (ix2 b l)
      = Scalar.select (Ideal.cmp .olt (c (ix2 b l)) (Cert.Spec.osim (ef (ix2 0 l)) (ls (ix2 0 l))))
          (Cert.Spec.inve (ef (ix2 0 l))) Cert.Spec.one := by
  unfold k0_pay10
  simp only [shapeCast_self]
  show Scalar.select (FloatOps.cmpf .olt (c (ix2 b l)) (broadcastTo S1024x256 _ broadcasts_S1x256_S1024x256 (ix2 b l)))
        (broadcastTo S1024x256 _ broadcasts_S1x256_S1024x256 (ix2 b l)) _ = _
  rw [bcast_row_apply, bcast_row_apply]
  rfl

theorem negv_apply (b : Fin 1024) (l : Fin 256) :
    negT (F := Ideal) x0 x2 x3 x4 (ix2 b l)
      = Cert.Spec.negv (Xk x0) (Pk x2 l) (x3 (ix2 0 l)) (x4 (ix2 0 l)) b := by
  show k0_pay10 (cosT x0 x2) (k0_pay9 x3) x4 (ix2 b l) = _
  rw [pay9_eq]
  refine (pay10_apply _ x3 x4 b l).trans ?_
  unfold Cert.Spec.negv
  rw [cos_apply]

theorem mask_apply (b : Fin 1024) (l : Fin 256) :
    k0_pay13 (F := Ideal) (k0_pay7 i x1) (negT x0 x2 x3 x4) (k0_pay12 (F := Ideal)) (ix2 b l)
      = Cert.Spec.mask (Xk x0) (Tk x1) (Pk x2 l) (x3 (ix2 0 l)) (x4 (ix2 0 l)) (tileWord i l) b := by
  unfold Cert.Spec.mask k0_pay13 k0_pay12
  show Scalar.select (Ideal.cmp .ogt (k0_pay7 i x1 (ix2 b l)) (Ideal.ofBits .f32 0x00000000#32))
        (negT x0 x2 x3 x4 (ix2 b l)) Cert.Spec.one = _
  rw [Ideal.ofBits_zero_f32, cold_apply, negv_apply]

end Cert.KernelIdeal.TileVal

end
-- ==== Proof.TileCols.lean ====
/-
  What a grid point adds to each running sum is the sum, over the tile's 256 columns, of the specification's column
  contribution: the body reduces each [1024, 256] value over the samples (a sum down each column), applies the
  column's scalar operations, and sums the 256 results along the row.
-/
import proofs.«133286_j10222022165009_1_alg».proof.Proof.TileElems

noncomputable section

namespace Cert.KernelIdeal.TileVal

open Idealize.ShloMosaic Idealize.ShloMosaic.ValueIdx Cert.KernelIdeal Cert.KernelIdeal.Gen Cert.KernelIdeal.Tile

variable (i : grid0.Coords) (x0 : Vec Ideal S1024x512 .f32) (x1 : Vec Ideal S1024x1 .i32) (x2 : Vec Ideal S256x512 .f32)
variable (x3 x4 : Vec Ideal S1x256 .f32)

/-! ## The operations that are not entrywise, read at an index -/

/-- A sum down the samples of a [1024, 256] value, read at column l. -/
theorem colsum_apply (src : FVec Ideal S1024x256 .f32) (l : Fin 256) :
    (multiReduction .add [0] S256 src 0x00000000#32 reduces_S1024x256_S256 (.inl rfl) rfl : FVec Ideal S256 .f32) (ix1 l)
      = ∑ b : Fin 1024, src (ix2 b l) := by
  refine (Ideal.multiReduction_add_single src 0x00000000#32 reduces_S1024x256_S256 (.inl rfl) rfl (ix1 l)).trans ?_
  show ∑ b : Fin 1024, src (reduces_S1024x256_S256.lift (ix1 l) b) = _
  refine Finset.sum_congr rfl fun b _ => congrArg src ?_
  funext c
  apply Fin.ext
  match c with
  | ⟨0, _⟩ => rfl
  | ⟨1, _⟩ => rfl

/-- A sum along the 256 columns of a [1, 256] row. -/
theorem lanesum_apply (src : FVec Ideal S1x256 .f32) :
    (multiReduction .add [1] S1 src 0x00000000#32 reduces_S1x256_S1 (.inl rfl) rfl : FVec Ideal S1 .f32) (ix1 0)
      = ∑ l : Fin 256, src (ix2 0 l) := by
  refine (Ideal.multiReduction_add_single src 0x00000000#32 reduces_S1x256_S1 (.inl rfl) rfl (ix1 0)).trans ?_
  show ∑ l : Fin 256, src (reduces_S1x256_S1.lift (ix1 0) l) = _
  refine Finset.sum_congr rfl fun l _ => congrArg src ?_
  funext c
  apply Fin.ext
  match c with
  | ⟨0, _⟩ => rfl
  | ⟨1, _⟩ => rfl

/-- A [256] value cast to a [1, 256] row reads, at (0, l), the value at l. -/
theorem castRow_apply {α : Type} (v : S256.Idx → α) (l : Fin 256) :
    shapeCast S1x256 v shapeCasts_S256_S1x256 (ix2 0 l) = v (ix1 l) :=
  shapeCast_a_1a_apply v shapeCasts_S256_S1x256 0 l

/-- A [1] value cast to [1, 1] reads, at (0, 0), the value at 0. -/
theorem castOne_apply {α : Type} (v : S1.Idx → α) :
    shapeCast S1x1 v shapeCasts_S1_S1x1 (ix2 0 0) = v (ix1 0) :=
  shapeCast_a_1a_apply v shapeCasts_S1_S1x1 0 0

/-! ## The column's scalar operations -/

/-- The exponential of a vector, read at an index. -/
theorem exp_apply {s : Shape} {φ : FTy} (a : FVec Ideal s φ) (j : s.Idx) :
    Idealize.ShloMosaic.exp a j = Ideal.exp (a j) := rfl

/-- log (1 + x) of a vector, read at an index. -/
theorem log1p_apply {s : Shape} {φ : FTy} (a : FVec Ideal s φ) (j : s.Idx) :
    Idealize.ShloMosaic.log1p a j = Ideal.log1p (a j) := rfl

/-- The presence row at column l: whether the column's count of positives is above zero. -/
theorem pres_apply (l : Fin 256) :
    k0_pay8 (F := Ideal) i x1 (ix2 0 l) = Cert.Spec.col (Xk x0) (Tk x1) (Pk x2 l) (x3 (ix2 0 l)) (x4 (ix2 0 l)) (tileWord i l) 0 := by
  unfold k0_pay8
  simp only [sitofp_apply, extui_apply, cmpf_apply, broadcast_apply, sitofp_bit, castRow_apply, Ideal.cmpf_def,
    Ideal.ofBits_def, Ideal.ofBits_zero_f32]
  rw [colsum_apply]
  simp only [hot_apply]
  rfl

/-- Slab 0: the tile's presence count is the sum of its columns' presences. -/
theorem part0_eq :
    part (F := Ideal) 0 i x0 x1 x2 x3 x4 = ∑ l : Fin 256, Cert.Spec.col (Xk x0) (Tk x1) (Pk x2 l) (x3 (ix2 0 l)) (x4 (ix2 0 l)) (tileWord i l) 0 := by
  show (multiReduction .add [1] S1 (k0_pay8 (F := Ideal) i x1) 0x00000000#32 reduces_S1x256_S1 (.inl rfl) rfl :
    FVec Ideal S1 .f32) (ix1 0) = _
  rw [lanesum_apply]
  exact Finset.sum_congr rfl fun l _ => pres_apply i x0 x1 x2 x3 x4 l

/-- Slab 1: each column's summed negative weight over its number of negatives (at least one), zero for a column
    with no negative, summed over the tile's columns. -/
theorem part1_eq :
    part (F := Ideal) 1 i x0 x1 x2 x3 x4 = ∑ l : Fin 256, Cert.Spec.col (Xk x0) (Tk x1) (Pk x2 l) (x3 (ix2 0 l)) (x4 (ix2 0 l)) (tileWord i l) 1 := by
  show k0_pay11 (F := Ideal) (cosT x0 x2) (k0_pay7 i x1) (k0_pay9 x3) x4 (ix2 0 0) = _
  unfold k0_pay11
  simp only [castOne_apply]
  rw [lanesum_apply]
  refine Finset.sum_congr rfl fun l _ => ?_
  simp only [select_apply, cmpf_apply, divf_apply, maximumf_apply, broadcast_apply, castRow_apply, Ideal.cmpf_def,
    Ideal.ofBits_def, Ideal.ofBits_zero_f32]
  rw [colsum_apply, colsum_apply]
  simp only [mulf_apply, cold_apply, negv_apply]
  rfl

/-- Slab 2: log (1 + the column's sum over its positives of the weighted exponential), summed over the columns. -/
theorem part2_eq :
    part (F := Ideal) 2 i x0 x1 x2 x3 x4 = ∑ l : Fin 256, Cert.Spec.col (Xk x0) (Tk x1) (Pk x2 l) (x3 (ix2 0 l)) (x4 (ix2 0 l)) (tileWord i l) 2 := by
  show k0_pay14 (F := Ideal) (cosT x0 x2) (k0_pay6 i x1) (k0_pay7 i x1) (negT x0 x2 x3 x4) (k0_pay12 (F := Ideal))
    (ix2 0 0) = _
  unfold k0_pay14
  simp only [castOne_apply]
  rw [lanesum_apply]
  refine Finset.sum_congr rfl fun l _ => ?_
  simp only [log1p_apply, castRow_apply]
  rw [colsum_apply]
  simp only [mulf_apply, exp_apply, subf_apply, broadcast_apply, Ideal.ofBits_def, hot_apply, cos_apply, mask_apply]
  rfl

/-- Slab 3: the same over the column's negatives, with the cosine plus the margin in the exponent. -/
theorem part3_eq :
    part (F := Ideal) 3 i x0 x1 x2 x3 x4 = ∑ l : Fin 256, Cert.Spec.col (Xk x0) (Tk x1) (Pk x2 l) (x3 (ix2 0 l)) (x4 (ix2 0 l)) (tileWord i l) 3 := by
  show k0_pay15 (F := Ideal) (cosT x0 x2) (k0_pay7 i x1) (negT x0 x2 x3 x4) (k0_pay12 (F := Ideal)) (ix2 0 0) = _
  unfold k0_pay15
  simp only [castOne_apply]
  rw [lanesum_apply]
  refine Finset.sum_congr rfl fun l _ => ?_
  simp only [log1p_apply, castRow_apply]
  rw [colsum_apply]
  simp only [mulf_apply, exp_apply, addf_apply, broadcast_apply, Ideal.ofBits_def, cold_apply, cos_apply, mask_apply]
  rfl

/-- What point i adds to slab k: the tile's 256 columns' contributions k, summed. -/
theorem part_eq (k : Fin 4) :
    part (F := Ideal) k i x0 x1 x2 x3 x4
      = ∑ l : Fin 256, Cert.Spec.col (Xk x0) (Tk x1) (Pk x2 l) (x3 (ix2 0 l)) (x4 (ix2 0 l)) (tileWord i l) k := by
  match k with
  | 0 => exact part0_eq i x0 x1 x2 x3 x4
  | 1 => exact part1_eq i x0 x1 x2 x3 x4
  | 2 => exact part2_eq i x0 x1 x2 x3 x4
  | 3 => exact part3_eq i x0 x1 x2 x3 x4

end Cert.KernelIdeal.TileVal

end
-- ==== Proof.Blocks.lean ====
/-
  A grid point's blocks are pieces of the argument arrays, so what the point adds to a running sum is the
  specification's sum over the point's tile of 256 columns of the whole arrays.

  Point n (n < 64) sees the whole embeddings and targets, rows 256 n .. 256 n + 255 of the proxies, and entries
  256 n .. 256 n + 255 of the effective numbers and learned similarities (the program reshapes the targets to a
  column and the two vectors to rows before the region); the index word the body gives column l of the tile is the
  word of 256 n + l.
-/
import proofs.«133286_j10222022165009_1_alg».proof.Proof.Accum
import proofs.«133286_j10222022165009_1_alg».proof.Proof.TileCols
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Tile Cert.KernelIdeal.Accum

variable (m : (ℓ : Loc nD τ sig) → Buf (Elt Ideal) ℓ)

/-- The program's arguments on core c as plain functions of their coordinates. -/
abbrev Xa (c : Dev nD) : Fin 1024 → Fin 512 → EReal := fun b e => m ((c.tc : Thread nD τ).loc main_arg0) (ix2 b e)
abbrev Ta (c : Dev nD) : Fin 1024 → BitVec 32 := fun b => m ((c.tc : Thread nD τ).loc main_arg1) (ix1 b)
abbrev Pa (c : Dev nD) : Fin 16384 → Fin 512 → EReal := fun j e => m ((c.tc : Thread nD τ).loc main_arg2) (ix2 j e)
abbrev Ea (c : Dev nD) : Fin 16384 → EReal := fun j => m ((c.tc : Thread nD τ).loc main_arg3) (ix1 j)
abbrev La (c : Dev nD) : Fin 16384 → EReal := fun j => m ((c.tc : Thread nD τ).loc main_arg4) (ix1 j)

/-! ## The windows' block indices and the grid's coordinates, at every point of the grid -/

/-- Windows 0 and 1 are the whole arrays at every point. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
/-- Window 2 is block row t of the proxies. -/
theorem idx2 : ∀ t : Fin cfg0.N, win0_2.index t (0 : Fin 2) = t.val ∧ win0_2.index t (1 : Fin 2) = 0 :=
  (by decide +kernel : ∀ t : Fin grid0.N, _)
/-- Windows 3 and 4 are block column t of the two rows. -/
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
/-- Point t has coordinates (t / 32, t % 32). -/
theorem coords_val : ∀ t : Fin cfg0.N, ((grid0.coords t) 0).val * 32 + ((grid0.coords t) 1).val = t.val :=
  (by decide +kernel : ∀ t : Fin grid0.N, _)

/-! ## The blocks of the arrays no operation before the region writes -/

/-- Window 0's block is the embeddings. -/
theorem blk0_apply (c : Dev nD) (t : Fin cfg0.N) (b : Fin 1024) (e : Fin 512) :
    (iblk m c 0 t : Vec Ideal S1024x512 .f32) (ix2 b e) = m ((c.tc : Thread nD τ).loc main_arg0) (ix2 b e) := by
  unfold iblk
  rw [View.read_apply]
  show V m c main_arg0 _ = _
  rw [V_main_arg0]
  refine congrArg (m ((c.tc : Thread nD τ).loc main_arg0)) ?_
  funext a
  apply Fin.ext
  match a with
  | ⟨0, _⟩ => show win0_0.index t 0 * 1024 + 1 * b.val = b.val; rw [(idx0 t).1]; omega
  | ⟨1, _⟩ => show win0_0.index t 1 * 512 + 1 * e.val = e.val; rw [(idx0 t).2]; omega

/-- Window 2's block is rows 256 t .. 256 t + 255 of the proxies. -/
theorem blk2_apply (c : Dev nD) (t : Fin cfg0.N) (l : Fin 256) (e : Fin 512) (j : Fin 16384) (hj : j.val = 256 * t.val + l.val) :
    (iblk m c 2 t : Vec Ideal S256x512 .f32) (ix2 l e) = m ((c.tc : Thread nD τ).loc main_arg2) (ix2 j e) := by
  unfold iblk
  rw [View.read_apply]
  show V m c main_arg2 _ = _
  rw [V_main_arg2]
  refine congrArg (m ((c.tc : Thread nD τ).loc main_arg2)) ?_
  funext a
  apply Fin.ext
  match a with
  | ⟨0, _⟩ => show win0_2.index t 0 * 256 + 1 * l.val = j.val; rw [(idx2 t).1, hj]; omega
  | ⟨1, _⟩ => show win0_2.index t 1 * 512 + 1 * e.val = e.val; rw [(idx2 t).2]; omega

/-! ## The index word -/

/-- The word the body gives column l of the tile at point t is the word of 256 t + l. -/
theorem tileWord_eq (t : Fin cfg0.N) (l : Fin 256) :
    tileWord (grid0.coords t) l = BitVec.ofNat 32 (256 * t.val + l.val) := by
  unfold tileWord IntOp.addi Scalar.muli Scalar.addi IntOp.muli IntOp.addi
  show (BitVec.ofNat 32 ((grid0.coords t) 0).val * BitVec.ofNat 32 32 + BitVec.ofNat 32 ((grid0.coords t) 1).val) * BitVec.ofNat 32 256
    + BitVec.ofNat 32 l.val = _
  rw [← BitVec.ofNat_mul, ← BitVec.ofNat_add, ← BitVec.ofNat_mul, ← BitVec.ofNat_add, coords_val t, Nat.mul_comm]

/-! ## The arrays the program reshapes before the region -/

/-- The region finds the targets as a column. -/
theorem V_v0 (c : Dev nD) :
    (V m c main_v0 : S1024x1.Idx → BitVec 32)
      = shapeCast S1024x1 (m ((c.tc : Thread nD τ).loc main_arg1)) shapeCasts_S1024_S1024x1 := by
  show StableHlo.after hostOps0 (fun b => m (c, b)) (Proc.devRef .tc main_v0) = _
  after_results
  rfl

/-- The region finds the effective numbers as a row. -/
theorem V_v1 (c : Dev nD) :
    (V m c main_v1 : S1x16384.Idx → EReal)
      = shapeCast S1x16384 (m ((c.tc : Thread nD τ).loc main_arg3)) shapeCasts_S16384_S1x16384 := by
  show StableHlo.after hostOps0 (fun b => m (c, b)) (Proc.devRef .tc main_v1) = _
  after_results
  rfl

/-- The region finds the learned similarities as a row. -/
theorem V_v2 (c : Dev nD) :
    (V m c main_v2 : S1x16384.Idx → EReal)
      = shapeCast S1x16384 (m ((c.tc : Thread nD τ).loc main_arg4)) shapeCasts_S16384_S1x16384 := by
  show StableHlo.after hostOps0 (fun b => m (c, b)) (Proc.devRef .tc main_v2) = _
  after_results
  rfl

section Casts
variable {α : Type}

/-- A [1024] array cast to a column reads, at (b, u), the array at b. -/
theorem cast_col1024_apply (w : S1024.Idx → α) (b : Fin 1024) (u : Fin 1) :
    shapeCast S1024x1 w shapeCasts_S1024_S1024x1 (ix2 b u) = w (ix1 b) :=
  shapeCast_apply w shapeCasts_S1024_S1024x1 _ _ (by
    have hu : u.val = 0 := by omega
    rw [Shape.rowMajor_val_two, Shape.rowMajor_val_one]
    show b.val = b.val * 1 + u.val
    omega)

/-- A [16384] array cast to a row reads, at (u, j), the array at j. -/
theorem cast_row16384_apply (w : S16384.Idx → α) (u : Fin 1) (j : Fin 16384) :
    shapeCast S1x16384 w shapeCasts_S16384_S1x16384 (ix2 u j) = w (ix1 j) :=
  shapeCast_a_1a_apply w shapeCasts_S16384_S1x16384 u j

end Casts

/-! ## The blocks of the reshaped arrays -/

/-- Window 1's block is the targets, as a column. -/
theorem blk1_apply (c : Dev nD) (t : Fin cfg0.N) (b : Fin 1024) :
    (iblk m c 1 t : Vec Ideal S1024x1 .i32) (ix2 b 0) = m ((c.tc : Thread nD τ).loc main_arg1) (ix1 b) := by
  unfold iblk
  rw [View.read_apply]
  show (V m c main_v0 : S1024x1.Idx → BitVec 32) _ = _
  rw [V_v0]
  refine Eq.trans (congrArg _ ?_) (cast_col1024_apply _ b 0)
  funext a
  apply Fin.ext
  match a with
  | ⟨0, _⟩ => show win0_1.index t 0 * 1024 + 1 * b.val = b.val; rw [(idx1 t).1]; omega
  | ⟨1, _⟩ => show win0_1.index t 1 * 1 + 1 * 0 = 0; rw [(idx1 t).2]

/-- Window 3's block is entries 256 t .. 256 t + 255 of the effective numbers, as a row. -/
theorem blk3_apply (c : Dev nD) (t : Fin cfg0.N) (l : Fin 256) (j : Fin 16384) (hj : j.val = 256 * t.val + l.val) :
    (iblk m c 3 t : Vec Ideal S1x256 .f32) (ix2 0 l) = m ((c.tc : Thread nD τ).loc main_arg3) (ix1 j) := by
  unfold iblk
  rw [View.read_apply]
  show (V m c main_v1 : S1x16384.Idx → EReal) _ = _
  rw [V_v1]
  refine Eq.trans (congrArg _ ?_) (cast_row16384_apply _ 0 j)
  funext a
  apply Fin.ext
  match a with
  | ⟨0, _⟩ => show win0_3.index t 0 * 1 + 1 * 0 = 0; rw [(idx3 t).1]
  | ⟨1, _⟩ => show win0_3.index t 1 * 256 + 1 * l.val = j.val; rw [(idx3 t).2, hj]; omega

/-- Window 4's block is entries 256 t .. 256 t + 255 of the learned similarities, as a row. -/
theorem blk4_apply (c : Dev nD) (t : Fin cfg0.N) (l : Fin 256) (j : Fin 16384) (hj : j.val = 256 * t.val + l.val) :
    (iblk m c 4 t : Vec Ideal S1x256 .f32) (ix2 0 l) = m ((c.tc : Thread nD τ).loc main_arg4) (ix1 j) := by
  unfold iblk
  rw [View.read_apply]
  show (V m c main_v2 : S1x16384.Idx → EReal) _ = _
  rw [V_v2]
  refine Eq.trans (congrArg _ ?_) (cast_row16384_apply _ 0 j)
  funext a
  apply Fin.ext
  match a with
  | ⟨0, _⟩ => show win0_4.index t 0 * 1 + 1 * 0 = 0; rw [(idx4 t).1]
  | ⟨1, _⟩ => show win0_4.index t 1 * 256 + 1 * l.val = j.val; rw [(idx4 t).2, hj]; omega

/-! ## The point's part as the tile's sum over the whole arrays -/

/-- A column's contribution depends on its six arguments only. -/
theorem col_congr (k : Fin 4) {X X' : Fin 1024 → Fin 512 → EReal} {T T' : Fin 1024 → BitVec 32}
    {p p' : Fin 512 → EReal} {ef ef' ls ls' : EReal} {jw jw' : BitVec 32}
    (hX : X = X') (hT : T = T') (hp : p = p') (hef : ef = ef') (hls : ls = ls') (hjw : jw = jw') :
    Cert.Spec.col X T p ef ls jw k = Cert.Spec.col X' T' p' ef' ls' jw' k := by
  subst hX hT hp hef hls hjw
  rfl

/-- What point n adds to slab k is the sum of contribution k over the columns of tile n of the whole arrays. -/
theorem Mt_eq (c : Dev nD) (n : ℕ) (k : Fin 4) :
    Mt m c n k = Cert.Spec.tileSum (fun j => Cert.Spec.gcol (Xa m c) (Ta m c) (Pa m c) (Ea m c) (La m c) k j) n := by
  by_cases h : n < cfg0.N
  · have hN : cfg0.N = 64 := N_0
    have h64 : n < 64 := by omega
    have hl : ∀ l : Fin 256, 256 * n + l.val < 16384 := fun l => by have := l.isLt; omega
    -- the point's blocks, as the specification's arguments
    have e0 : TileVal.Xk (iblk m c 0 ⟨n, h⟩ : Vec Ideal S1024x512 .f32) = Xa m c :=
      funext fun b => funext fun e => blk0_apply m c ⟨n, h⟩ b e
    have e1 : TileVal.Tk (iblk m c 1 ⟨n, h⟩ : Vec Ideal S1024x1 .i32) = Ta m c :=
      funext fun b => blk1_apply m c ⟨n, h⟩ b
    have e2 : ∀ l : Fin 256, TileVal.Pk (iblk m c 2 ⟨n, h⟩ : Vec Ideal S256x512 .f32) l = Pa m c ⟨256 * n + l.val, hl l⟩ :=
      fun l => funext fun e => blk2_apply m c ⟨n, h⟩ l e ⟨256 * n + l.val, hl l⟩ rfl
    have e3 : ∀ l : Fin 256, (iblk m c 3 ⟨n, h⟩ : Vec Ideal S1x256 .f32) (ix2 0 l) = Ea m c ⟨256 * n + l.val, hl l⟩ :=
      fun l => blk3_apply m c ⟨n, h⟩ l ⟨256 * n + l.val, hl l⟩ rfl
    have e4 : ∀ l : Fin 256, (iblk m c 4 ⟨n, h⟩ : Vec Ideal S1x256 .f32) (ix2 0 l) = La m c ⟨256 * n + l.val, hl l⟩ :=
      fun l => blk4_apply m c ⟨n, h⟩ l ⟨256 * n + l.val, hl l⟩ rfl
    have e5 : ∀ l : Fin 256, tileWord (grid0.coords ⟨n, h⟩) l = BitVec.ofNat 32 (256 * n + l.val) :=
      fun l => tileWord_eq ⟨n, h⟩ l
    rw [Mt_of_lt m c n h k]
    refine (TileVal.part_eq (grid0.coords ⟨n, h⟩) (iblk m c 0 ⟨n, h⟩) (iblk m c 1 ⟨n, h⟩) (iblk m c 2 ⟨n, h⟩)
      (iblk m c 3 ⟨n, h⟩) (iblk m c 4 ⟨n, h⟩) k).trans ?_
    unfold Cert.Spec.tileSum
    rw [dif_pos h64]
    refine Finset.sum_congr rfl fun l _ => ?_
    exact col_congr k e0 e1 (e2 l) (e3 l) (e4 l) (e5 l)
  · -- past the grid both sides are zero
    have hN : cfg0.N = 64 := N_0
    have h64 : ¬ n < 64 := by omega
    unfold Mt Cert.Spec.tileSum
    rw [dif_neg h, dif_neg h64]

end Cert.KernelIdeal.Blocks

end
-- ==== Proof.SpecLaws.lean ====
/-
  The two laws that join the kernel's arrangement of the loss to the reference's.

  Regrouping: a sum over the 16384 columns is core 0's 32 tiles then core 1's, each tile its 256 columns
  (addition of extended reals is commutative and associative, so no finiteness is needed).

  The norm: for 0 < y (y may be +infinity) the reciprocal root is the inverse of the root, so the product with it is
  the quotient by the root; and a sum of squares of extended reals is never negative, so adding the positive eps
  gives a positive y whatever the entries are.
-/
import proofs.«133286_j10222022165009_1_alg».proof.Proof.Spec

noncomputable section

namespace Cert.Spec

open Idealize.ShloMosaic

/-- All columns: core 0's tiles, then core 1's. -/
theorem sum_eq_cores (f : Fin 16384 → EReal) : ∑ j, f j = coreSum f 0 + coreSum f 1 := by
  have e : ∑ j, f j = ∑ a : Fin (32 + 32), ∑ b : Fin 256, f (finProdFinEquiv (a, b)) := by
    rw [← Fintype.sum_prod_type (f := fun p : Fin (32 + 32) × Fin 256 => f (finProdFinEquiv p))]
    exact (Equiv.sum_comp (finProdFinEquiv : Fin (32 + 32) × Fin 256 ≃ Fin ((32 + 32) * 256)) f).symm
  rw [e, Fin.sum_univ_add]
  unfold coreSum
  rw [Finset.sum_range, Finset.sum_range]
  refine congrArg₂ (· + ·) ?_ ?_
  · refine Finset.sum_congr rfl fun s _ => ?_
    rw [tileSum, dif_pos (by have := s.isLt; omega)]
    refine Finset.sum_congr rfl fun l _ => ?_
    refine congrArg f (Fin.ext ?_)
    simp only [finProdFinEquiv_apply_val, Fin.coe_castAdd]
    omega
  · refine Finset.sum_congr rfl fun s _ => ?_
    rw [tileSum, dif_pos (by have := s.isLt; omega)]
    refine Finset.sum_congr rfl fun l _ => ?_
    refine congrArg f (Fin.ext ?_)
    simp only [finProdFinEquiv_apply_val, Fin.coe_natAdd]
    omega

/-- A product with the reciprocal root is the quotient by the root, for a positive radicand. -/
theorem mul_rsqrt_eq_div_sqrt (x y : EReal) (hy : 0 < y) : x * Ideal.rsqrt y = Ideal.div x (Ideal.sqrt y) := by
  induction y using EReal.rec with
  | bot => exact absurd hy (by simp)
  | top =>
    rw [Ideal.rsqrt_top, Ideal.sqrt_top, Ideal.div, if_neg EReal.top_ne_zero, EReal.inv_top]
  | coe r =>
    have hr : 0 < r := by exact_mod_cast hy
    have hs : 0 < Real.sqrt r := Real.sqrt_pos.mpr hr
    rw [Ideal.rsqrt_coe, Ideal.sqrt_coe, if_neg (not_lt.mpr hr.le), if_neg hr.ne', if_neg (not_lt.mpr hr.le),
      Ideal.div_coe hs.ne', one_div]

theorem eps_pos : (0 : EReal) < eps := by
  have h : eps = (((9223372 : ℝ) * (2 : ℝ) ^ (-63 : ℤ) : ℝ) : EReal) := by
    simp [eps, Ideal.ofBits, Ideal.ieee, -EReal.coe_mul]
  rw [h]
  exact_mod_cast (by positivity : (0 : ℝ) < (9223372 : ℝ) * (2 : ℝ) ^ (-63 : ℤ))

/-- The square of an extended real is never negative. -/
private theorem mul_self_nonneg_ereal (x : EReal) : 0 ≤ x * x := by
  induction x using EReal.rec with
  | bot => simp
  | top => simp
  | coe r => rw [← EReal.coe_mul]; exact_mod_cast mul_self_nonneg r

/-- A sum of squares plus eps is positive. -/
theorem sumsq_eps_pos (p : Fin 512 → EReal) : 0 < (∑ e : Fin 512, p e * p e) + eps :=
  lt_of_lt_of_le eps_pos (le_add_of_nonneg_left (Finset.sum_nonneg fun e _ => mul_self_nonneg_ereal (p e)))

end Cert.Spec

end
-- ==== Proof.KValue.lean ====
/-
  The kernel's run at the ideal instance, with its result named: the loss of the argument arrays.

  The region leaves core cc's 32-tile total of contribution k in rows 8 cc .. 8 cc + 7 of slab k; a tile's addition is
  the specification's sum over the tile's 256 columns, so a core's total is the specification's core sum, the two
  cores' totals add to the sum over all 16384 columns, and the host operations after the region form
  total 2 / total 0 + total 3 / total 1: the loss.
-/
import proofs.«133286_j10222022165009_1_alg».proof.Proof.OutArr
import proofs.«133286_j10222022165009_1_alg».proof.Proof.KTailVal
import proofs.«133286_j10222022165009_1_alg».proof.Proof.Blocks
import proofs.«133286_j10222022165009_1_alg».proof.Proof.SpecLaws

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.KernelIdeal.OutArr Cert.KernelIdeal.KTail
open Cert.KernelIdeal.Blocks

variable (m : (ℓ : Loc nD τ sig) → Buf (Elt Ideal) ℓ) (ρ : Dev nD → PrngReg)

/-- Contribution k of column j of the program's arguments on core c. -/
abbrev gc (c : Dev nD) (k : Fin 4) : Fin 16384 → EReal :=
  fun j => Cert.Spec.gcol (Xa m c) (Ta m c) (Pa m c) (Ea m c) (La m c) k j

/-- The loss of the program's arguments on core c, as contents of the result buffer. -/
def lossBuf (c : Dev nD) : Buf (Elt Ideal) ((c.tc : Thread nD τ).loc main_v18) :=
  fun _ => Cert.Spec.loss (Xa m c) (Ta m c) (Pa m c) (Ea m c) (La m c)

/-- A core's total is the specification's sum over the core's 32 tiles. -/
theorem coreTot_eq (c : Dev nD) (cc : ℕ) (k : Fin 4) : coreTot m c cc k = Cert.Spec.coreSum (gc m c k) cc := by
  unfold coreTot Cert.Spec.coreSum
  exact Finset.sum_congr rfl fun s _ => Mt_eq m c _ k

/-- The result array at (k, q, l): core q / 8's total for slab k. -/
theorem outArr_apply (c : Dev nD) (k : Fin 4) (q : Fin 16) (l : Fin 128) :
    outArr m c (ix3 k q l) = coreTot m c (q.val / 8) k := rfl

/-- The two cores' totals of contribution k add to its sum over all columns. -/
theorem tot_eq (c : Dev nD) (k : Fin 4) : tot (outArr m c) k = ∑ j, gc m c k j := by
  have h0 : (0 : Fin 16).val / 8 = 0 := by decide
  have h8 : (8 : Fin 16).val / 8 = 1 := by decide
  rw [Cert.Spec.sum_eq_cores, ← coreTot_eq, ← coreTot_eq]
  unfold tot
  rw [outArr_apply, outArr_apply, h0, h8]

/-- The tail of the region's result array is the loss. -/
theorem result_eq (c : Dev nD) (i : S_.Idx) :
    tailFn (F := Ideal) ((dats m 0 c).arrAt 5 cfg0.N) i = Cert.Spec.loss (Xa m c) (Ta m c) (Pa m c) (Ea m c) (La m c) := by
  rw [final5, tailFn_ideal, tot_eq, tot_eq, tot_eq, tot_eq]
  rfl

/-- Every weakly fair execution ends with the result buffer at the loss and the arguments unchanged. -/
theorem run : θ_run defs (onTc (τ := τ) (main (F := Ideal))) ⟨m, fun _ => 0, ρ⟩ (fun r => ∀ c : Dev nD,
      r.2.mem ((c.tc : Thread nD τ).loc main_v18) = lossBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans
        ((tail_eq m c).trans (funext fun i => result_eq m c i)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefElems.lean ====
/-
  The reference's stages that have one entry per sample and column, read at an index (b, j), and the per-column
  threshold and down-weight, read at j: each is the specification's function of column j's data.
  The cosine is where the two programs differ in spelling: the reference divides the proxy row by the root of its
  sum of squares plus eps, the specification multiplies by the reciprocal root; the two agree because the radicand is
  positive.
-/
import proofs.«133286_j10222022165009_1_alg».proof.Proof.RefRead
import proofs.«133286_j10222022165009_1_alg».proof.Proof.SpecLaws

noncomputable section

namespace Cert.ReferenceIdeal.RefValue

open Idealize.ShloMosaic Idealize.ShloMosaic.ValueIdx Cert.ReferenceIdeal Cert.ReferenceIdeal.ReadP

variable (x0 : (⟨S1024x512, .f32⟩ : BufTy).Contents (Elt Ideal)) (x1 : (⟨S1024, .i32⟩ : BufTy).Contents (Elt Ideal))
variable (x2 : (⟨S16384x512, .f32⟩ : BufTy).Contents (Elt Ideal)) (x3 x4 : (⟨S16384, .f32⟩ : BufTy).Contents (Elt Ideal))

/-- The reference's arguments as plain functions of their coordinates. -/
abbrev Xr : Fin 1024 → Fin 512 → EReal := fun b e => x0 (ix2 b e)
abbrev Tr : Fin 1024 → BitVec 32 := fun b => x1 (ix1 b)
abbrev Pr : Fin 16384 → Fin 512 → EReal := fun j e => x2 (ix2 j e)
abbrev Er : Fin 16384 → EReal := fun j => x3 (ix1 j)
abbrev Lr : Fin 16384 → EReal := fun j => x4 (ix1 j)

/-- The radicand of column j's norm: the sum of squares of its proxy row (the sum's initial value is the zero word)
    plus eps. -/
theorem radicand_apply (j : Fin 16384) :
    val_main_v6 (F := Ideal) x2 (ix1 j) = (∑ e : Fin 512, Pr x2 j e * Pr x2 j e) + Cert.Spec.eps := by
  rw [val_main_v6_apply, val_main_v4_apply, val_main_v5_apply, val_main_cst_1_apply, val_main_cst_0_apply]
  simp only [Ideal.addf_def, Ideal.ofBits_def, Ideal.ofBits_zero_f32, zero_add]
  refine congrArg (· + _) (Finset.sum_congr rfl fun e _ => ?_)
  rw [val_main_v3_apply]
  have h : idx_main_v4 (ix1 j) e = ix2 j e :=
    funext fun a => Fin.ext (by match a with | ⟨0, _⟩ => rfl | ⟨1, _⟩ => rfl)
  rw [h]
  rfl

/-- An entry of the normalized proxy table: the proxy entry over the root of the row's radicand. -/
theorem unit_apply (j : Fin 16384) (e : Fin 512) :
    val_main_v10 (F := Ideal) x2 (ix2 j e)
      = Ideal.div (Pr x2 j e) (Ideal.sqrt ((∑ e : Fin 512, Pr x2 j e * Pr x2 j e) + Cert.Spec.eps)) := by
  rw [val_main_v10_apply, val_main_v9_apply, val_main_v8_apply, val_main_v7_apply]
  have h : idx_main_v8 (idx_main_v9 (ix2 j e)) = ix1 j :=
    funext fun a => Fin.ext (by match a with | ⟨0, _⟩ => rfl)
  rw [h, radicand_apply]
  rfl

theorem cos_apply (b : Fin 1024) (j : Fin 16384) :
    val_main_v12 (F := Ideal) x0 x2 (ix2 b j) = Cert.Spec.cosv (Xr x0) (Pr x2 j) b := by
  rw [val_main_v12_apply]
  unfold Cert.Spec.cosv Cert.Spec.nrm
  refine Finset.sum_congr rfl fun e _ => ?_
  rw [val_main_v11_apply]
  have hl : lidx_main_v12 (ix2 b j) e = ix2 b e :=
    funext fun a => Fin.ext (by match a with | ⟨0, _⟩ => rfl | ⟨1, _⟩ => rfl)
  have hr : idx_main_v11 (ridx_main_v12 (ix2 b j) e) = ix2 j e :=
    funext fun a => Fin.ext (by match a with | ⟨0, _⟩ => rfl | ⟨1, _⟩ => rfl)
  rw [hl, hr, unit_apply, ← Cert.Spec.mul_rsqrt_eq_div_sqrt _ _ (Cert.Spec.sumsq_eps_pos _)]

theorem hot_apply (b : Fin 1024) (j : Fin 16384) :
    val_main_v0 (F := Ideal) x1 (ix2 b j) = Cert.Spec.hot (Tr x1) (BitVec.ofNat 32 j.val) b := by
  rw [val_main_v0_apply, val_main_call0_v4_apply, val_main_call0_v2_apply, val_main_call0_v0_apply,
    val_main_call0_v3_apply, val_main_call0_v1_apply]
  have h : idx_main_call0_v0 (idx_main_call0_v2 (ix2 b j)) = ix1 b :=
    funext fun a => Fin.ext (by match a with | ⟨0, _⟩ => rfl)
  rw [h]
  rfl

theorem cold_apply (b : Fin 1024) (j : Fin 16384) :
    val_main_v2 (F := Ideal) x1 (ix2 b j) = Cert.Spec.cold (Tr x1) (BitVec.ofNat 32 j.val) b := by
  rw [val_main_v2_apply, val_main_v1_apply, val_main_cst_apply, hot_apply]
  rfl

theorem osim_apply (j : Fin 16384) :
    val_main_v31 (F := Ideal) x3 x4 (ix1 j) = Cert.Spec.osim (Er x3 j) (Lr x4 j) := by
  rw [val_main_v31_apply, val_main_v30_apply, val_main_v28_apply, val_main_v29_apply, val_main_cst_9_apply,
    val_main_v27_apply, val_main_v26_apply, val_main_cst_8_apply, val_main_v25_apply, val_main_v24_apply,
    val_main_cst_7_apply, val_main_v23_apply, val_main_v22_apply, val_main_cst_6_apply, val_main_v21_apply,
    val_main_v20_apply, val_main_cst_5_apply, val_main_v19_apply, val_main_v18_apply, val_main_cst_4_apply,
    val_main_v17_apply]
  rfl

theorem inve_apply (j : Fin 16384) :
    val_main_v39 (F := Ideal) x3 (ix1 j) = Cert.Spec.inve (Er x3 j) := by
  rw [val_main_v39_apply, val_main_v38_apply, val_main_cst_12_apply, val_main_v37_apply, val_main_v36_apply,
    val_main_cst_11_apply]
  rfl

theorem negv_apply (b : Fin 1024) (j : Fin 16384) :
    val_main_v41 (F := Ideal) x0 x2 x3 x4 (ix2 b j) = Cert.Spec.negv (Xr x0) (Pr x2 j) (Er x3 j) (Lr x4 j) b := by
  rw [val_main_v41_apply, val_main_v35_apply, cos_apply, val_main_v34_apply, val_main_v33_apply,
    val_main_call1_v1_apply, val_main_v40_apply, val_main_call1_v2_apply, val_main_call1_v0_apply,
    val_main_cst_13_apply]
  have h1 : idx_main_v33 (idx_main_v34 (ix2 b j)) = ix1 j :=
    funext fun a => Fin.ext (by match a with | ⟨0, _⟩ => rfl)
  have h2 : idx_main_v40 (idx_main_call1_v1 (ix2 b j)) = ix1 j :=
    funext fun a => Fin.ext (by match a with | ⟨0, _⟩ => rfl)
  rw [h1, h2, osim_apply, inve_apply]
  rfl

theorem mask_apply (b : Fin 1024) (j : Fin 16384) :
    val_main_v54 (F := Ideal) x0 x1 x2 x3 x4 (ix2 b j)
      = Cert.Spec.mask (Xr x0) (Tr x1) (Pr x2 j) (Er x3 j) (Lr x4 j) (BitVec.ofNat 32 j.val) b := by
  rw [val_main_v54_apply, val_main_v53_apply, cold_apply, val_main_v52_apply, val_main_cst_20_apply, negv_apply,
    val_main_call3_v1_apply, val_main_call3_v0_apply, val_main_cst_21_apply]
  unfold Cert.Spec.mask
  simp only [Ideal.ofBits_def, Ideal.ofBits_zero_f32, Ideal.cmpf_def]

end Cert.ReferenceIdeal.RefValue

end
-- ==== Proof.RefCols.lean ====
/-
  The reference's four per-column results, read at column j, are the specification's column contributions, and its
  scalar result is the specification's loss: each total is the zero initial value plus the sum over all columns.
-/
import proofs.«133286_j10222022165009_1_alg».proof.Proof.RefElems
import Idealize.ShloMosaic.Lib.ValueIdxRank1

noncomputable section

namespace Cert.ReferenceIdeal.RefValue

open Idealize.ShloMosaic Idealize.ShloMosaic.ValueIdx Cert.ReferenceIdeal Cert.ReferenceIdeal.ReadP

variable (x0 : (⟨S1024x512, .f32⟩ : BufTy).Contents (Elt Ideal)) (x1 : (⟨S1024, .i32⟩ : BufTy).Contents (Elt Ideal))
variable (x2 : (⟨S16384x512, .f32⟩ : BufTy).Contents (Elt Ideal)) (x3 x4 : (⟨S16384, .f32⟩ : BufTy).Contents (Elt Ideal))

/-- Column j's presence: whether the count of samples whose target is j is above zero. -/
theorem col0_apply (j : Fin 16384) :
    val_main_v16 (F := Ideal) x1 (ix1 j) = Cert.Spec.gcol (Xr x0) (Tr x1) (Pr x2) (Er x3) (Lr x4) 0 j := by
  have hidx : ∀ k : Fin 1024, idx_main_v13 (ix1 j) k = ix2 k j := fun k =>
    funext fun a => Fin.ext (by match a with | ⟨0, _⟩ => rfl | ⟨1, _⟩ => rfl)
  rw [val_main_v16_apply, val_main_v15_apply, val_main_v13_apply, val_main_v14_apply, val_main_cst_3_apply,
    val_main_cst_2_apply]
  simp only [hidx, hot_apply, Ideal.ofBits_def, Ideal.ofBits_zero_f32, zero_add, Ideal.cmpf_def]
  rfl

/-- Column j's mean negative weight: the sum of the weights of its negatives over their number (at least one),
    and zero when it has no negative. -/
theorem col1_apply (j : Fin 16384) :
    val_main_v50 (F := Ideal) x0 x1 x2 x3 x4 (ix1 j) = Cert.Spec.gcol (Xr x0) (Tr x1) (Pr x2) (Er x3) (Lr x4) 1 j := by
  have h42 : ∀ k : Fin 1024, idx_main_v42 (ix1 j) k = ix2 k j := fun k =>
    funext fun a => Fin.ext (by match a with | ⟨0, _⟩ => rfl | ⟨1, _⟩ => rfl)
  have h44 : ∀ k : Fin 1024, idx_main_v44 (ix1 j) k = ix2 k j := fun k =>
    funext fun a => Fin.ext (by match a with | ⟨0, _⟩ => rfl | ⟨1, _⟩ => rfl)
  rw [val_main_v50_apply, val_main_v49_apply, val_main_v47_apply, val_main_v46_apply, val_main_v44_apply,
    val_main_v42_apply, val_main_v45_apply, val_main_v48_apply, val_main_call2_v1_apply, val_main_call2_v0_apply,
    val_main_cst_14_apply, val_main_cst_15_apply, val_main_cst_16_apply, val_main_cst_17_apply, val_main_cst_18_apply]
  simp only [h42, h44, val_main_v43_apply, cold_apply, negv_apply, Ideal.ofBits_def, Ideal.ofBits_zero_f32, zero_add,
    Ideal.cmpf_def, Ideal.mulf_def, Ideal.maximumf_def, Ideal.hostDivf_def]
  rfl

/-- Column j's positive term: log1p of the sum over its positives of exp (32 * (0.1 - cos) * weight). -/
theorem col2_apply (j : Fin 16384) :
    val_main_v63 (F := Ideal) x0 x1 x2 x3 x4 (ix1 j) = Cert.Spec.gcol (Xr x0) (Tr x1) (Pr x2) (Er x3) (Lr x4) 2 j := by
  have h62 : ∀ k : Fin 1024, idx_main_v62 (ix1 j) k = ix2 k j := fun k =>
    funext fun a => Fin.ext (by match a with | ⟨0, _⟩ => rfl | ⟨1, _⟩ => rfl)
  rw [val_main_v63_apply, val_main_v62_apply, val_main_cst_24_apply]
  simp only [h62, val_main_v61_apply, val_main_v60_apply, val_main_v59_apply, val_main_v58_apply, val_main_v57_apply,
    val_main_v56_apply, val_main_v55_apply, val_main_cst_22_apply, val_main_cst_23_apply, hot_apply, cos_apply,
    mask_apply, Ideal.ofBits_def, Ideal.ofBits_zero_f32, zero_add, Ideal.mulf_def, Ideal.subf_def,
    Ideal.hostUnary_exp_def, Ideal.hostUnary_log1p_def]
  rfl

/-- Column j's negative term: log1p of the sum over its negatives of exp (32 * (cos + 0.1) * weight). -/
theorem col3_apply (j : Fin 16384) :
    val_main_v73 (F := Ideal) x0 x1 x2 x3 x4 (ix1 j) = Cert.Spec.gcol (Xr x0) (Tr x1) (Pr x2) (Er x3) (Lr x4) 3 j := by
  have h72 : ∀ k : Fin 1024, idx_main_v72 (ix1 j) k = ix2 k j := fun k =>
    funext fun a => Fin.ext (by match a with | ⟨0, _⟩ => rfl | ⟨1, _⟩ => rfl)
  rw [val_main_v73_apply, val_main_v72_apply, val_main_cst_28_apply]
  simp only [h72, val_main_v71_apply, val_main_v70_apply, val_main_v69_apply, val_main_v68_apply, val_main_v67_apply,
    val_main_v66_apply, val_main_v65_apply, val_main_cst_26_apply, val_main_cst_27_apply, cold_apply, cos_apply,
    mask_apply, Ideal.ofBits_def, Ideal.ofBits_zero_f32, zero_add, Ideal.mulf_def, Ideal.addf_def,
    Ideal.hostUnary_exp_def, Ideal.hostUnary_log1p_def]
  rfl

/-- A sum over a rank-one index set is the sum over its coordinate. -/
private theorem sum_idx1 {n : Nat} (f : (⟨1, ![n]⟩ : Shape).Idx → EReal) :
    ∑ i, f i = ∑ a : Fin n, f (ix1 a) :=
  (Equiv.sum_comp (idxEquiv1 (n := n)).symm f).symm

/-- The reference's result is the loss of its arguments. -/
theorem ref_loss (i : S_.Idx) :
    val_main_v77 (F := Ideal) x0 x1 x2 x3 x4 i = Cert.Spec.loss (Xr x0) (Tr x1) (Pr x2) (Er x3) (Lr x4) := by
  rw [val_main_v77_apply, val_main_v75_apply, val_main_v76_apply, val_main_v64_apply, val_main_v32_apply,
    val_main_v74_apply, val_main_v51_apply, val_main_cst_10_apply, val_main_cst_19_apply, val_main_cst_25_apply,
    val_main_cst_29_apply, sum_idx1 (val_main_v16 (F := Ideal) x1), sum_idx1 (val_main_v50 (F := Ideal) x0 x1 x2 x3 x4),
    sum_idx1 (val_main_v63 (F := Ideal) x0 x1 x2 x3 x4), sum_idx1 (val_main_v73 (F := Ideal) x0 x1 x2 x3 x4)]
  simp only [col0_apply x0 x1 x2 x3 x4, col1_apply, col2_apply, col3_apply, Ideal.ofBits_def, Ideal.ofBits_zero_f32,
    zero_add, Ideal.addf_def, Ideal.hostDivf_def]
  rfl

end Cert.ReferenceIdeal.RefValue

end
-- ==== Proof.lean ====
/-
  The certificate of the proxy loss kernel against its reference.

  The kernel tiles the 16384 class columns into 64 tiles of 256, 32 tiles to each of two cores. At each grid point it
  normalizes the tile's proxy rows by the reciprocal root of their sum of squares plus eps, takes the cosines of the
  batch against them by a matrix product, builds the one-hot block from the targets and the tile's column indices, and
  adds four numbers to a running block per core: the tile's count of present classes, its summed mean negative
  weight, and its two summed log terms. After the region the host adds the two cores' totals and forms
  (positive term / present count) + (negative term / negative weight).
  The reference computes the same four totals as sums over all 16384 columns at once, dividing the proxy rows by the
  root where the kernel multiplies by the reciprocal root.
  Over the extended reals the two agree: the radicand, a sum of squares plus a positive eps, is positive, so the product
  with the reciprocal root is the quotient by the root; every other operation is the same function of the same
  entries; and the sums regroup freely (core by core, tile by tile). Finiteness of the inputs is not used.

  The three frames are the generated frame runs (the reference's its generated run with the result dropped); the ideal
  pass rewrote nothing, so the kernel's idealization is its own text.
-/
import proofs.«133286_j10222022165009_1_alg».proof.Defs
import proofs.«133286_j10222022165009_1_alg».proof.Proof.Gen.Kernel
import proofs.«133286_j10222022165009_1_alg».proof.Proof.Gen.Kernel.Frame
import proofs.«133286_j10222022165009_1_alg».proof.Proof.Gen.KernelIdeal
import proofs.«133286_j10222022165009_1_alg».proof.Proof.Gen.KernelIdeal.Frame
import proofs.«133286_j10222022165009_1_alg».proof.Proof.Gen.ReferenceIdeal
import proofs.«133286_j10222022165009_1_alg».proof.Proof.Gen.Pre_finite_inputs
import proofs.«133286_j10222022165009_1_alg».proof.Proof.KValue
import proofs.«133286_j10222022165009_1_alg».proof.Proof.RefCols
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the loss of the (agreeing) arguments in their result buffer. -/
theorem algebraic : Cert.algebraic_KernelIdeal_ReferenceIdeal := by
  intro m ρ m' ρ' _ hagree
  refine ⟨fun c => Cert.KernelIdeal.KValue.lossBuf m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v77_eq, (hagree c).1, (hagree c).2.1, (hagree c).2.2.1, (hagree c).2.2.2.1,
    (hagree c).2.2.2.2]
  funext i
  exact Cert.ReferenceIdeal.RefValue.ref_loss _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
